-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x65536x16 : Shape := ⟨3, ![32, 65536, 16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S33x64 : Shape := ⟨2, ![33, 64]⟩
abbrev S64x3 : Shape := ⟨2, ![64, 3]⟩
abbrev S3 : Shape := ⟨1, ![3]⟩
abbrev S_ : Shape := ⟨0, ![]⟩

class Facts : Prop where
  bcast_S_S32x65536x16 : S_.BroadcastsInDim S32x65536x16 (![] : Fin 0 → Fin S32x65536x16.rank)
  reducesTo_S32x65536x16_S_d0_1_2 : S32x65536x16.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S33x64 : S_.BroadcastsInDim S33x64 (![] : Fin 0 → Fin S33x64.rank)
  reducesTo_S33x64_S_d0_1 : S33x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S64x3 .f32) (main_arg8 : FVec F S3 .f32) (main_v33 : IVec S_ 1) : IVec S_ 1 :=
  let main_v34 : FVec F S64x3 .f32 := Host.absf main_arg7
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S32 .f32) (main_arg5 : FVec F S33x64 .f32) (main_arg6 : FVec F S64 .f32) (main_arg7 : FVec F S64x3 .f32) (main_arg8 : FVec F S3 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S33x64 .f32 := Host.absf main_arg5
  let main_cst_8 : FVec F S_ .f32 := constant S_ .f32 0x7F800000#32
  let main_v25 : FVec F S33x64 .f32 := broadcastInDim S33x64 ![] bcast_S_S33x64 main_cst_8
  let main_v26 : IVec S33x64 1 := cmpf .olt main_v24 main_v25
  let main_c_9 : IVec S_ 1 := constantI S_ 1 1#1
  let main_v27 : IVec S_ 1 := (fun x v => Host.reduce IntOp.andi x v reducesTo_S33x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S32x65536x16 .f32) (main_arg1 : FVec F S16x64 .f32) (main_arg2 : FVec F S64 .f32) (main_arg3 : FVec F S64x32 .f32) (main_arg4 : FVec F S32 .f32) (main_arg5 : FVec F S33x64 .f32) (main_arg6 : FVec F S64 .f32) (main_arg7 : FVec F S64x3 .f32) (main_arg8 : FVec F S3 .f32) : IVec S_ 1 :=
  let main_v0 : FVec F S32x65536x16 .f32 := Host.absf main_arg0
  let main_cst : FVec F S_ .f32 := constant S_ .f32 0x7F800000#32
  let main_v1 : FVec F S32x65536x16 .f32 := broadcastInDim S32x65536x16 ![] bcast_S_S32x65536x16 main_cst
  let main_v2 : IVec S32x65536x16 1 := cmpf .olt main_v0 main_v1
  let main_c : IVec S_ 1 := constantI S_ 1 1#1
  let main_v3 : IVec S_ 1 := (fun x v => Host.reduce IntOp.andi x v reducesTo_S32x65536x16_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_arg8 main_v13 main_v16
-- ==== Kernel.lean ====
abbrev S32x65536x16 : Shape := ⟨3, ![32, 65536, 16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S33x64 : Shape := ⟨2, ![33, 64]⟩
abbrev S64x3 : Shape := ⟨2, ![64, 3]⟩
abbrev S3 : Shape := ⟨1, ![3]⟩
abbrev S32x1x32 : Shape := ⟨3, ![32, 1, 32]⟩
abbrev S1x16384x16 : Shape := ⟨3, ![1, 16384, 16]⟩
abbrev S1x1x32 : Shape := ⟨3, ![1, 1, 32]⟩
abbrev S1x32 : Shape := ⟨2, ![1, 32]⟩
abbrev S16384x16 : Shape := ⟨2, ![16384, 16]⟩
abbrev S16384x64 : Shape := ⟨2, ![16384, 64]⟩
abbrev S1x64 : Shape := ⟨2, ![1, 64]⟩
abbrev S16384x32 : Shape := ⟨2, ![16384, 32]⟩
abbrev S32x65536x1 : Shape := ⟨3, ![32, 65536, 1]⟩
abbrev S32x64 : Shape := ⟨2, ![32, 64]⟩
abbrev S32x65536x3 : Shape := ⟨3, ![32, 65536, 3]⟩
abbrev S1x16384x1 : Shape := ⟨3, ![1, 16384, 1]⟩
abbrev S1x16384x3 : Shape := ⟨3, ![1, 16384, 3]⟩
abbrev S16384x1 : Shape := ⟨2, ![16384, 1]⟩
abbrev S16384x3 : Shape := ⟨2, ![16384, 3]⟩
abbrev S1x3 : Shape := ⟨2, ![1, 3]⟩

abbrev nBuf : Space → Nat
  | .hbm => 14
  | .vmem => 19
  | .smem => 0
  | _ => 0

abbrev bufTy : (tb : Table) → Fin (tcTables nBuf tb) → BufTy
  | .hbm, ⟨0, _⟩ => ⟨S32x65536x16, .f32⟩
  | .hbm, ⟨1, _⟩ => ⟨S16x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S33x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S32x1x32, .f32⟩
  | .hbm, ⟨10, _⟩ => ⟨S32x65536x1, .f32⟩
  | .hbm, ⟨11, _⟩ => ⟨S32x64, .f32⟩
  | .hbm, ⟨12, _⟩ => ⟨S1x64, .f32⟩
  | .hbm, ⟨13, _⟩ => ⟨S32x65536x3, .f32⟩
  | .local _ .vmem, ⟨0, _⟩ => ⟨S1x16384x16, .f32⟩
  | .local _ .vmem, ⟨1, _⟩ => ⟨S1x16384x16, .f32⟩
  | .local _ .vmem, ⟨2, _⟩ => ⟨S16x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S1x1x32, .f32⟩
  | .local _ .vmem, ⟨7, _⟩ => ⟨S1x1x32, .f32⟩
  | .local _ .vmem, ⟨8, _⟩ => ⟨S1x16384x1, .f32⟩
  | .local _ .vmem, ⟨9, _⟩ => ⟨S1x16384x1, .f32⟩
  | .local _ .vmem, ⟨10, _⟩ => ⟨S1x1x32, .f32⟩
  | .local _ .vmem, ⟨11, _⟩ => ⟨S1x1x32, .f32⟩
  | .local _ .vmem, ⟨12, _⟩ => ⟨S32x64, .f32⟩
  | .local _ .vmem, ⟨13, _⟩ => ⟨S1x64, .f32⟩
  | .local _ .vmem, ⟨14, _⟩ => ⟨S64, .f32⟩
  | .local _ .vmem, ⟨15, _⟩ => ⟨S64x3, .f32⟩
  | .local _ .vmem, ⟨16, _⟩ => ⟨S3, .f32⟩
  | .local _ .vmem, ⟨17, _⟩ => ⟨S1x16384x3, .f32⟩
  | .local _ .vmem, ⟨18, _⟩ => ⟨S1x16384x3, .f32⟩
  | _, _ => ⟨S32x65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x16384x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x16384x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S1x16384x16_S1x16384x16_0_0_0 : ∀ a, (![0, 0, 0] : Fin 3 → Nat) a + S1x16384x16.size a ≤ S1x16384x16.size a
  h_S1x16384x16 : 0 < S1x16384x16.numel
  shapeCasts_S1x16384x16_S16384x16 : S1x16384x16.ShapeCasts S16384x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  reduces_S16384x32_S32 : S16384x32.Reduces [0] S32
  slices_S32x65536x16_S32x65536x1_0_0_15 : S32x65536x16.Slices ![0, 0, 15] S32x65536x1
  slices_S33x64_S32x64_0_0 : S33x64.Slices ![0, 0] S32x64
  slices_S33x64_S1x64_32_0 : S33x64.Slices ![32, 0] S1x64
  inb_S1x16384x1_S1x16384x1_0_0_0 : ∀ a, (![0, 0, 0] : Fin 3 → Nat) a + S1x16384x1.size a ≤ S1x16384x1.size a
  h_S1x16384x1 : 0 < S1x16384x1.numel
  shapeCasts_S1x16384x1_S16384x1 : S1x16384x1.ShapeCasts S16384x1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S16384x1_S16384x64 : S16384x1.Broadcasts S16384x64
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S16384x3 : S1x3.Broadcasts S16384x3
  inb_S1x16384x3_S1x16384x3_0_0_0 : ∀ a, (![0, 0, 0] : Fin 3 → Nat) a + S1x16384x3.size a ≤ S1x16384x3.size a
  h_S1x16384x3 : 0 < S1x16384x3.numel
  shapeCasts_S1x16384x3_S16384x3 : S1x16384x3.ShapeCasts S16384x3
  shapeCasts_S16384x3_S1x16384x3 : S16384x3.ShapeCasts S1x16384x3
  dot_S16384x16_S16x64_S16384x64_1_0_0_1_n_n_wf : DotDims.WF S16384x16 S16x64 S16384x64 [1] [0] [0] [1] [] []
  dot_S16384x64_S64x32_S16384x32_1_0_0_1_n_n_wf : DotDims.WF S16384x64 S64x32 S16384x32 [1] [0] [0] [1] [] []
  dot_S1x32_S32x64_S1x64_1_0_0_1_n_n_wf : DotDims.WF S1x32 S32x64 S1x64 [1] [0] [0] [1] [] []
  dot_S16384x64_S64x3_S16384x3_1_0_0_1_n_n_wf : DotDims.WF S16384x64 S64x3 S16384x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x16.size a ≤ S32x65536x16.size a
  hwx0_0 : ∀ i : grid0.Coords, EltTy.bits .f32 = 32 ∨ (Rect.block (s := S32x65536x16) S1x16384x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32.size a ≤ S32x1x32.size a
  hwx0_5 : ∀ i : grid0.Coords, EltTy.bits .f32 = 32 ∨ (Rect.block (s := S32x1x32) S1x1x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16384x1.size a ≤ S32x65536x1.size a
  hwx1_0 : ∀ i : grid1.Coords, EltTy.bits .f32 = 32 ∨ (Rect.block (s := S32x65536x1) S1x16384x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x32.size a ≤ S32x1x32.size a
  hwx1_1 : ∀ i : grid1.Coords, EltTy.bits .f32 = 32 ∨ (Rect.block (s := S32x1x32) S1x1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x3.size a ≤ S64x3.size a
  hwx1_5 : ∀ i : grid1.Coords, EltTy.bits .f32 = 32 ∨ (Rect.block (s := S64x3) S64x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3.size a ≤ S3.size a
  hwx1_6 : ∀ i : grid1.Coords, EltTy.bits .f32 = 32 ∨ (Rect.block (s := S3) S3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x16384x3.size a ≤ S32x65536x3.size a
  hwx1_7 : ∀ i : grid1.Coords, EltTy.bits .f32 = 32 ∨ (Rect.block (s := S32x65536x3) S1x16384x3.size (cc1_transform_7 i) (hinb1_7 i)).WholeWords (EltTy.packing .f32)

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S16384x64_S64x3_S16384x3_1_0_0_1_n_n : DotDims S16384x64 S64x3 S16384x3 where
  lhsContracting := [1]
  rhsContracting := [0]
  lhsNonContracting := [0]
  rhsNonContracting := [1]
  lhsBatch := []
  rhsBatch := []
  wf := dot_S16384x64_S64x3_S16384x3_1_0_0_1_n_n_wf

abbrev win0_0 : Pipeline.Window sig grid0 :=
  Pipeline.Window.ofSpec (Memref.whole main_arg0) S1x16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S1x16384x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S1x16384x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x65536x16 : Shape := ⟨3, ![32, 65536, 16]⟩
abbrev S16x64 : Shape := ⟨2, ![16, 64]⟩
abbrev S64 : Shape := ⟨1, ![64]⟩
abbrev S64x32 : Shape := ⟨2, ![64, 32]⟩
abbrev S32 : Shape := ⟨1, ![32]⟩
abbrev S33x64 : Shape := ⟨2, ![33, 64]⟩
abbrev S64x3 : Shape := ⟨2, ![64, 3]⟩
abbrev S3 : Shape := ⟨1, ![3]⟩
abbrev S32x65536x64 : Shape := ⟨3, ![32, 65536, 64]⟩
abbrev S1x1x64 : Shape := ⟨3, ![1, 1, 64]⟩
abbrev S_ : Shape := ⟨0, ![]⟩
abbrev S32x65536x32 : Shape := ⟨3, ![32, 65536, 32]⟩
abbrev S1x1x32 : Shape := ⟨3, ![1, 1, 32]⟩
abbrev S32x32 : Shape := ⟨2, ![32, 32]⟩
abbrev S32x1x32 : Shape := ⟨3, ![32, 1, 32]⟩
abbrev S32x65536x1 : Shape := ⟨3, ![32, 65536, 1]⟩
abbrev S32x65536x33 : Shape := ⟨3, ![32, 65536, 33]⟩
abbrev S32x65536x3 : Shape := ⟨3, ![32, 65536, 3]⟩
abbrev S1x1x3 : Shape := ⟨3, ![1, 1, 3]⟩

abbrev nBuf : Space → Nat
  | .hbm => 37
  | .vmem => 0
  | .smem => 0
  | _ => 0

abbrev bufTy : (tb : Table) → Fin (tcTables nBuf tb) → BufTy
  | .hbm, ⟨0, _⟩ => ⟨S32x65536x16, .f32⟩
  | .hbm, ⟨1, _⟩ => ⟨S16x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S33x64, .f32⟩
  | .hbm, ⟨6, _⟩ => ⟨S64, .f32⟩
  | .hbm, ⟨7, _⟩ => ⟨S64x3, .f32⟩
  | .hbm, ⟨8, _⟩ => ⟨S3, .f32⟩
  | .hbm, ⟨9, _⟩ => ⟨S32x65536x64, .f32⟩
  | .hbm, ⟨10, _⟩ => ⟨S1x1x64, .f32⟩
  | .hbm, ⟨11, _⟩ => ⟨S32x65536x64, .f32⟩
  | .hbm, ⟨12, _⟩ => ⟨S32x65536x64, .f32⟩
  | .hbm, ⟨13, _⟩ => ⟨S_, .f32⟩
  | .hbm, ⟨14, _⟩ => ⟨S32x65536x64, .f32⟩
  | .hbm, ⟨15, _⟩ => ⟨S32x65536x64, .f32⟩
  | .hbm, ⟨16, _⟩ => ⟨S32x65536x32, .f32⟩
  | .hbm, ⟨17, _⟩ => ⟨S1x1x32, .f32⟩
  | .hbm, ⟨18, _⟩ => ⟨S32x65536x32, .f32⟩
  | .hbm, ⟨19, _⟩ => ⟨S32x65536x32, .f32⟩
  | .hbm, ⟨20, _⟩ => ⟨S_, .f32⟩
  | .hbm, ⟨21, _⟩ => ⟨S32x32, .f32⟩
  | .hbm, ⟨22, _⟩ => ⟨S32x1x32, .f32⟩
  | .hbm, ⟨23, _⟩ => ⟨S32x65536x32, .f32⟩
  | .hbm, ⟨24, _⟩ => ⟨S32x65536x1, .f32⟩
  | .hbm, ⟨25, _⟩ => ⟨S32x65536x33, .f32⟩
  | .hbm, ⟨26, _⟩ => ⟨S32x65536x64, .f32⟩
  | .hbm, ⟨27, _⟩ => ⟨S1x1x64, .f32⟩
  | .hbm, ⟨28, _⟩ => ⟨S32x65536x64, .f32⟩
  | .hbm, ⟨29, _⟩ => ⟨S32x65536x64, .f32⟩
  | .hbm, ⟨30, _⟩ => ⟨S_, .f32⟩
  | .hbm, ⟨31, _⟩ => ⟨S32x65536x64, .f32⟩
  | .hbm, ⟨32, _⟩ => ⟨S32x65536x64, .f32⟩
  | .hbm, ⟨33, _⟩ => ⟨S32x65536x3, .f32⟩
  | .hbm, ⟨34, _⟩ => ⟨S1x1x3, .f32⟩
  | .hbm, ⟨35, _⟩ => ⟨S32x65536x3, .f32⟩
  | .hbm, ⟨36, _⟩ => ⟨S32x65536x3, .f32⟩
  | _, _ => ⟨S32x65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S32x65536x64_0_1_2 : S1x1x64.BroadcastsInDim S32x65536x64 (![0, 1, 2] : Fin 3 → Fin S32x65536x64.rank)
  bcast_S_S32x65536x64 : S_.BroadcastsInDim S32x65536x64 (![] : Fin 0 → Fin S32x65536x64.rank)
  bcast_S32_S1x1x32_2 : S32.BroadcastsInDim S1x1x32 (![2] : Fin 1 → Fin S1x1x32.rank)
  bcast_S1x1x32_S32x65536x32_0_1_2 : S1x1x32.BroadcastsInDim S32x65536x32 (![0, 1, 2] : Fin 3 → Fin S32x65536x32.rank)
  reducesTo_S32x65536x32_S32x32_d1 : S32x65536x32.ReducesTo [1] S32x32
  h_S_ : 0 < S_.numel
  bcast_S32x32_S32x1x32_0_2 : S32x32.BroadcastsInDim S32x1x32 (![0, 2] : Fin 2 → Fin S32x1x32.rank)
  bcast_S32x1x32_S32x65536x32_0_1_2 : S32x1x32.BroadcastsInDim S32x65536x32 (![0, 1, 2] : Fin 3 → Fin S32x65536x32.rank)
  slices_S32x65536x16_S32x65536x1_0_0_15 : S32x65536x16.Slices ![0, 0, 15] S32x65536x1
  concatenates_S32x65536x32_S32x65536x1_S32x65536x33_d2 : Shape.Concatenates [S32x65536x32, S32x65536x1] S32x65536x33 2
  bcast_S3_S1x1x3_2 : S3.BroadcastsInDim S1x1x3 (![2] : Fin 1 → Fin S1x1x3.rank)
  bcast_S1x1x3_S32x65536x3_0_1_2 : S1x1x3.BroadcastsInDim S32x65536x3 (![0, 1, 2] : Fin 3 → Fin S32x65536x3.rank)
  dot_S32x65536x16_S16x64_S32x65536x64_2_0_01_1_n_n_wf : DotDims.WF S32x65536x16 S16x64 S32x65536x64 [2] [0] [0, 1] [1] [] []
  dot_S32x65536x64_S64x32_S32x65536x32_2_0_01_1_n_n_wf : DotDims.WF S32x65536x64 S64x32 S32x65536x32 [2] [0] [0, 1] [1] [] []
  dot_S32x65536x33_S33x64_S32x65536x64_2_0_01_1_n_n_wf : DotDims.WF S32x65536x33 S33x64 S32x65536x64 [2] [0] [0, 1] [1] [] []
  dot_S32x65536x64_S64x3_S32x65536x3_2_0_01_1_n_n_wf : DotDims.WF S32x65536x64 S64x3 S32x65536x3 [2] [0] [0, 1] [1] [] []

variable [Facts₀]

def dot_S32x65536x16_S16x64_S32x65536x64_2_0_01_1_n_n : DotDims S32x65536x16 S16x64 S32x65536x64 where
  lhsContracting := [2]
  rhsContracting := [0]
  lhsNonContracting := [0, 1]
  rhsNonContracting := [1]
  lhsBatch := []
  rhsBatch := []
  wf := dot_S32x65536x16_S16x64_S32x65536x64_2_0_01_1_n_n_wf
def dot_S32x65536x64_S64x32_S32x65536x32_2_0_01_1_n_n : DotDims S32x65536x64 S64x32 S32x65536x32 where
  lhsContracting := [2]
  rhsContracting := [0]
  lhsNonContracting := [0, 1]
  rhsNonContracting := [1]
  lhsBatch := []
  rhsBatch := []
  wf := dot_S32x65536x64_S64x32_S32x65536x32_2_0_01_1_n_n_wf
def dot_S32x65536x33_S33x64_S32x65536x64_2_0_01_1_n_n : DotDims S32x65536x33 S33x64 S32x65536x64 where
  lhsContracting := [2]
  rhsContracting := [0]
  lhsNonContracting := [0, 1]
  rhsNonContracting := [1]
  lhsBatch := []
  rhsBatch := []
  wf := dot_S32x65536x33_S33x64_S32x65536x64_2_0_01_1_n_n_wf
def dot_S32x65536x64_S64x3_S32x65536x3_2_0_01_1_n_n : DotDims S32x65536x64 S64x3 S32x65536x3 where
  lhsContracting := [2]
  rhsContracting := [0]
  lhsNonContracting := [0, 1]
  rhsNonContracting := [1]
  lhsBatch := []
  rhsBatch := []
  wf := dot_S32x65536x64_S64x3_S32x65536x3_2_0_01_1_n_n_wf

class Facts : Prop extends Facts₀ where

variable [Facts]
-- ==== Proof.RefImports.lean ====
/-
  The reference's run and its read-at-an-index lemmas, gathered in one place so that the modules that speak of the
  reference import a single name.
-/
import proofs.«124841_j88862873354402_1_alg».proof.Proof.Gen.ReferenceIdeal.Run
import proofs.«124841_j88862873354402_1_alg».proof.Proof.Gen.ReferenceIdeal.Read
-- ==== Proof.MessageNet.lean ====
/-
  The mathematics both programs compute, over the extended reals, with no program in sight.

  A node's feature row `row : Fin 16 → EReal` goes through a two-layer network: hidden unit `k` is
  `max (∑ d, row d · w1 d k + b1 k) 0`, and message component `q` is `∑ k, hidden k · w2 k q + b2 q`.
  Per batch `b` the messages of all 65536 nodes are summed. One program sums them in one sweep from zero
  (`totSum`); the other cuts the nodes into four tiles of 16384, sums each tile, and adds the four tile sums
  one after the other onto a zero start (`accSum`). Addition of extended reals is commutative and associative,
  so the two are the same number (`accSum_eq_totSum`): no finiteness is needed.

  The second network reads, per node, the 32 summed message components and the node's last feature. One program
  contracts the 33 features against the 33 rows of `iw1` at once (`outRef`); the other contracts the 32 summed
  components against the first 32 rows, and adds the last feature times row 32 (`out2`). A sum over `Fin 33` is
  the sum over its first 32 members plus the last term (`out2_eq_outRef`).
-/
import Idealize.ShloMosaic.PureOps.Ideal
import Idealize.ShloMosaic.Lib.ValueIdx
import Mathlib.Algebra.BigOperators.Fin
import Mathlib.Algebra.BigOperators.Group.Finset.Sigma

noncomputable section

namespace Cert.MessageNet

open Idealize.ShloMosaic Idealize.ShloMosaic.ValueIdx

/-- Arrays of extended reals of rank one, two and three, at literal extents. -/
abbrev T1 (a : Nat) : Type := FVec Ideal ⟨1, ![a]⟩ .f32
abbrev T2 (a b : Nat) : Type := FVec Ideal ⟨2, ![a, b]⟩ .f32
abbrev T3 (a b c : Nat) : Type := FVec Ideal ⟨3, ![a, b, c]⟩ .f32

/-! ## The message network on one feature row -/

/-- Hidden unit `k`: the rectified affine image of the row. -/
def hidden (row : Fin 16 → EReal) (w1 : T2 16 64) (b1 : T1 64) (k : Fin 64) : EReal :=
  max ((∑ d : Fin 16, row d * w1 (ix2 d k)) + b1 (ix1 k)) 0

/-- Message component `q`: the affine image of the hidden layer. -/
def message (row : Fin 16 → EReal) (w1 : T2 16 64) (b1 : T1 64) (w2 : T2 64 32) (b2 : T1 32) (q : Fin 32) : EReal :=
  (∑ k : Fin 64, hidden row w1 b1 k * w2 (ix2 k q)) + b2 (ix1 q)

/-! ## Summing the messages over the nodes: in four tiles, or at once -/

/-- Node `r` of tile `j`: tiles are 16384 consecutive nodes. -/
def node (j : Fin 4) (r : Fin 16384) : Fin 65536 :=
  ⟨16384 * j.val + r.val, by have := j.isLt; have := r.isLt; omega⟩

/-- Every node is node `r` of tile `j` for exactly one `(j, r)`: quotient and remainder by 16384. -/
def nodeEquiv : Fin 4 × Fin 16384 ≃ Fin 65536 where
  toFun p := node p.1 p.2
  invFun n := (⟨n.val / 16384, by have := n.isLt; omega⟩, ⟨n.val % 16384, by omega⟩)
  left_inv p := by
    obtain ⟨j, r⟩ := p
    have hj := j.isLt
    have hr := r.isLt
    refine Prod.ext (Fin.ext ?_) (Fin.ext ?_)
    · show (16384 * j.val + r.val) / 16384 = j.val
      omega
    · show (16384 * j.val + r.val) % 16384 = r.val
      omega
  right_inv n := by
    refine Fin.ext ?_
    show 16384 * (n.val / 16384) + n.val % 16384 = n.val
    omega

/-- A sum over the nodes is the sum, over the four tiles, of the tile's sum. -/
theorem sum_nodes (f : Fin 65536 → EReal) :
    ∑ n : Fin 65536, f n = ∑ j : Fin 4, ∑ r : Fin 16384, f (node j r) := by
  rw [← Equiv.sum_comp nodeEquiv f, Fintype.sum_prod_type]
  rfl

/-- The messages of tile `j` of batch `b`, summed. -/
def tileSum (x : T3 32 65536 16) (w1 : T2 16 64) (b1 : T1 64) (w2 : T2 64 32) (b2 : T1 32)
    (b : Fin 32) (j : Fin 4) (q : Fin 32) : EReal :=
  ∑ r : Fin 16384, message (fun d => x (ix3 b (node j r) d)) w1 b1 w2 b2 q

/-- The four tile sums added in tile order onto a zero start. -/
def accSum (x : T3 32 65536 16) (w1 : T2 16 64) (b1 : T1 64) (w2 : T2 64 32) (b2 : T1 32)
    (b : Fin 32) (q : Fin 32) : EReal :=
  (((0 + tileSum x w1 b1 w2 b2 b 0 q) + tileSum x w1 b1 w2 b2 b 1 q) + tileSum x w1 b1 w2 b2 b 2 q)
    + tileSum x w1 b1 w2 b2 b 3 q

/-- All 65536 messages added onto a zero start. -/
def totSum (x : T3 32 65536 16) (w1 : T2 16 64) (b1 : T1 64) (w2 : T2 64 32) (b2 : T1 32)
    (b : Fin 32) (q : Fin 32) : EReal :=
  0 + ∑ n : Fin 65536, message (fun d => x (ix3 b n d)) w1 b1 w2 b2 q

/-- Tile by tile or at once: the same sum. -/
theorem accSum_eq_totSum (x : T3 32 65536 16) (w1 : T2 16 64) (b1 : T1 64) (w2 : T2 64 32) (b2 : T1 32)
    (b : Fin 32) (q : Fin 32) : accSum x w1 b1 w2 b2 b q = totSum x w1 b1 w2 b2 b q := by
  unfold accSum totSum tileSum
  rw [sum_nodes, Fin.sum_univ_four]
  simp only [zero_add]

/-! ## The second network on one node -/

/-- The summed message `s` against the first 32 rows `wa`, plus the node's last feature `l` times the one row
    `wb`; then the bias, the rectifier, and the output layer. -/
def out2 (s : Fin 32 → EReal) (l : EReal) (wa : T2 32 64) (wb : T2 1 64) (ib1 : T1 64) (iw2 : T2 64 3) (ib2 : T1 3)
    (o : Fin 3) : EReal :=
  (∑ k : Fin 64, max (((∑ q : Fin 32, s q * wa (ix2 q k)) + l * wb (ix2 0 k)) + ib1 (ix1 k)) 0 * iw2 (ix2 k o))
    + ib2 (ix1 o)

/-- The 33 features of a node: the 32 summed message components, then its last feature. -/
def feature (s : Fin 32 → EReal) (l : EReal) (f : Fin 33) : EReal :=
  if h : f.val < 32 then s ⟨f.val, h⟩ else l

/-- All 33 features against the 33 rows of `iw1`; then the bias, the rectifier, and the output layer. -/
def outRef (s : Fin 32 → EReal) (l : EReal) (iw1 : T2 33 64) (ib1 : T1 64) (iw2 : T2 64 3) (ib2 : T1 3)
    (o : Fin 3) : EReal :=
  (∑ k : Fin 64, max ((∑ f : Fin 33, feature s l f * iw1 (ix2 f k)) + ib1 (ix1 k)) 0 * iw2 (ix2 k o))
    + ib2 (ix1 o)

theorem feature_castSucc (s : Fin 32 → EReal) (l : EReal) (q : Fin 32) : feature s l q.castSucc = s q := by
  unfold feature
  rw [dif_pos (show (q.castSucc : Fin 33).val < 32 from q.isLt)]
  rfl

theorem feature_last (s : Fin 32 → EReal) (l : EReal) : feature s l (Fin.last 32) = l := by
  unfold feature
  rw [dif_neg (show ¬ (Fin.last 32 : Fin 33).val < 32 from Nat.lt_irrefl 32)]

/-- The contraction over the 33 features: its first 32 terms, then the last one. -/
theorem sum_features (s : Fin 32 → EReal) (l : EReal) (iw1 : T2 33 64) (k : Fin 64) :
    ∑ f : Fin 33, feature s l f * iw1 (ix2 f k)
      = (∑ q : Fin 32, s q * iw1 (ix2 q.castSucc k)) + l * iw1 (ix2 (Fin.last 32) k) := by
  rw [Fin.sum_univ_castSucc]
  simp only [feature_castSucc, feature_last]

/-- Splitting the contraction over the 33 features into its first 32 terms and the last one. -/
theorem out2_eq_outRef (s : Fin 32 → EReal) (l : EReal) (wa : T2 32 64) (wb : T2 1 64) (iw1 : T2 33 64)
    (ib1 : T1 64) (iw2 : T2 64 3) (ib2 : T1 3) (o : Fin 3)
    (hwa : ∀ (q : Fin 32) (k : Fin 64), wa (ix2 q k) = iw1 (ix2 q.castSucc k))
    (hwb : ∀ k : Fin 64, wb (ix2 0 k) = iw1 (ix2 (Fin.last 32) k)) :
    out2 s l wa wb ib1 iw2 ib2 o = outRef s l iw1 ib1 iw2 ib2 o := by
  unfold out2 outRef
  refine congrArg (· + ib2 (ix1 o)) (Finset.sum_congr rfl fun k _ => ?_)
  rw [sum_features, hwb k]
  refine congrArg (fun t => max ((t + l * iw1 (ix2 (Fin.last 32) k)) + ib1 (ix1 k)) 0 * iw2 (ix2 k o))
    (Finset.sum_congr rfl fun q _ => ?_)
  rw [hwa q k]

/-! ## The three whole arrays -/

/-- The first kernel's result array, `[32, 1, 32]`: per batch the accumulated message sum. -/
def msgSumArr (x : T3 32 65536 16) (w1 : T2 16 64) (b1 : T1 64) (w2 : T2 64 32) (b2 : T1 32) : T3 32 1 32 :=
  fun i => accSum x w1 b1 w2 b2 ⟨(i 0).val, (i 0).isLt⟩ ⟨(i 2).val, (i 2).isLt⟩

/-- The second kernel's result array, `[32, 65536, 3]`, from the arrays it is handed: the last-feature column
    `lc`, the message sums `ms`, the two pieces `wa`, `wb` of the first weight matrix, and the rest. -/
def stage2Arr (lc : T3 32 65536 1) (ms : T3 32 1 32) (wa : T2 32 64) (wb : T2 1 64) (ib1 : T1 64) (iw2 : T2 64 3)
    (ib2 : T1 3) : T3 32 65536 3 :=
  fun i => out2 (fun q => ms (ix3 ⟨(i 0).val, (i 0).isLt⟩ 0 q))
    (lc (ix3 ⟨(i 0).val, (i 0).isLt⟩ ⟨(i 1).val, (i 1).isLt⟩ 0)) wa wb ib1 iw2 ib2 ⟨(i 2).val, (i 2).isLt⟩

/-- The reference's result array, `[32, 65536, 3]`, from the nine arguments. -/
def refArr (x : T3 32 65536 16) (w1 : T2 16 64) (b1 : T1 64) (w2 : T2 64 32) (b2 : T1 32) (iw1 : T2 33 64)
    (ib1 : T1 64) (iw2 : T2 64 3) (ib2 : T1 3) : T3 32 65536 3 :=
  fun i => outRef (fun q => totSum x w1 b1 w2 b2 ⟨(i 0).val, (i 0).isLt⟩ q)
    (x (ix3 ⟨(i 0).val, (i 0).isLt⟩ ⟨(i 1).val, (i 1).isLt⟩ 15)) iw1 ib1 iw2 ib2 ⟨(i 2).val, (i 2).isLt⟩

/-- The two-kernel composition is the reference, whenever the arrays handed to the second kernel are the last
    feature column of `x` and the two row ranges of `iw1`. -/
theorem stage2Arr_eq_refArr (x : T3 32 65536 16) (w1 : T2 16 64) (b1 : T1 64) (w2 : T2 64 32) (b2 : T1 32)
    (iw1 : T2 33 64) (ib1 : T1 64) (iw2 : T2 64 3) (ib2 : T1 3) (lc : T3 32 65536 1) (wa : T2 32 64) (wb : T2 1 64)
    (hlc : ∀ (b : Fin 32) (n : Fin 65536), lc (ix3 b n 0) = x (ix3 b n 15))
    (hwa : ∀ (q : Fin 32) (k : Fin 64), wa (ix2 q k) = iw1 (ix2 q.castSucc k))
    (hwb : ∀ k : Fin 64, wb (ix2 0 k) = iw1 (ix2 (Fin.last 32) k)) :
    stage2Arr lc (msgSumArr x w1 b1 w2 b2) wa wb ib1 iw2 ib2 = refArr x w1 b1 w2 b2 iw1 ib1 iw2 ib2 := by
  funext i
  unfold stage2Arr refArr
  rw [hlc, out2_eq_outRef _ _ wa wb iw1 ib1 iw2 ib2 _ hwa hwb]
  refine congrArg (fun s => outRef s _ iw1 ib1 iw2 ib2 _) (funext fun q => ?_)
  unfold msgSumArr
  exact accSum_eq_totSum x w1 b1 w2 b2 _ q

end Cert.MessageNet

end
-- ==== Proof.MsgSumValue.lean ====
/-
  What the first kernel leaves in its result array, at the extended reals.
-/
import proofs.«124841_j88862873354402_1_alg».proof.Proof.Gen.KernelIdeal.Frame
import proofs.«124841_j88862873354402_1_alg».proof.Proof.MessageNet
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.MsgSumValue

open Cert.KernelIdeal Cert.KernelIdeal.Gen
open Idealize.ShloMosaic.ValueIdx Cert.MessageNet

variable (V : (c : Dev nD) → (b : Ref sig .tc) → Buf (Elt Ideal) ((c : Thread nD τ).loc b))

/-! ## The two block products read at an index -/

/-- First product, left operand: the row coordinate is the output's. -/
theorem dot_S16384x16_S16x64_S16384x64_1_0_0_1_n_n_lhs_0 (i : S16384x64.Idx)
    (q : dot_S16384x16_S16x64_S16384x64_1_0_0_1_n_n.contr.Idx) :
    (dot_S16384x16_S16x64_S16384x64_1_0_0_1_n_n.lhsIdx i q 0).val = (i 0).val := by
  unfold DotDims.lhsIdx
  rw [dif_neg (show ¬(0 : Fin S16384x16.rank) ∈ dot_S16384x16_S16x64_S16384x64_1_0_0_1_n_n.lhsBatch by decide),
    dif_pos (show (0 : Fin S16384x16.rank) ∈ dot_S16384x16_S16x64_S16384x64_1_0_0_1_n_n.lhsNonContracting by decide)]
  rfl
/-- First product, left operand: the column coordinate is the contraction's. -/
theorem dot_S16384x16_S16x64_S16384x64_1_0_0_1_n_n_lhs_1 (i : S16384x64.Idx)
    (q : dot_S16384x16_S16x64_S16384x64_1_0_0_1_n_n.contr.Idx) :
    (dot_S16384x16_S16x64_S16384x64_1_0_0_1_n_n.lhsIdx i q 1).val = (q ⟨0, by decide⟩).val :=
  dot_S16384x16_S16x64_S16384x64_1_0_0_1_n_n.lhsIdx_val_of_single rfl i q
/-- First product, right operand: the row coordinate is the contraction's. -/
theorem dot_S16384x16_S16x64_S16384x64_1_0_0_1_n_n_rhs_0 (i : S16384x64.Idx)
    (q : dot_S16384x16_S16x64_S16384x64_1_0_0_1_n_n.contr.Idx) :
    (dot_S16384x16_S16x64_S16384x64_1_0_0_1_n_n.rhsIdx i q 0).val = (q ⟨0, by decide⟩).val :=
  dot_S16384x16_S16x64_S16384x64_1_0_0_1_n_n.rhsIdx_val_of_single rfl i q
/-- First product, right operand: the column coordinate is the output's. -/
theorem dot_S16384x16_S16x64_S16384x64_1_0_0_1_n_n_rhs_1 (i : S16384x64.Idx)
    (q : dot_S16384x16_S16x64_S16384x64_1_0_0_1_n_n.contr.Idx) :
    (dot_S16384x16_S16x64_S16384x64_1_0_0_1_n_n.rhsIdx i q 1).val = (i 1).val := by
  unfold DotDims.rhsIdx
  rw [dif_neg (show ¬(1 : Fin S16x64.rank) ∈ dot_S16384x16_S16x64_S16384x64_1_0_0_1_n_n.rhsBatch by decide),
    dif_pos (show (1 : Fin S16x64.rank) ∈ dot_S16384x16_S16x64_S16384x64_1_0_0_1_n_n.rhsNonContracting by decide)]
  rfl

/-- The first block product into the zero block, at row `r` and column `k`: the sum over the 16 features. -/
theorem matmul_16_apply {φ₁ φ₂ : FTy} (A : FVec Ideal S16384x16 φ₁) (B : FVec Ideal S16x64 φ₂) (r : Fin 16384) (k : Fin 64) :
    matmul (F := Ideal) dot_S16384x16_S16x64_S16384x64_1_0_0_1_n_n none A B (constant (F := Ideal) S16384x64 .f32 0x00000000#32) (ix2 r k)
      = ∑ d : Fin 16, A (ix2 r d) * B (ix2 d k) := by
  refine (Ideal.matmul_constant_zero_apply dot_S16384x16_S16x64_S16384x64_1_0_0_1_n_n none A B (ix2 r k)).trans ?_
  rw [← Equiv.sum_comp (contrEquiv1 dot_S16384x16_S16x64_S16384x64_1_0_0_1_n_n 16 rfl rfl).symm]
  refine Finset.sum_congr rfl fun d _ => ?_
  have hd := contrEquiv1_symm_val dot_S16384x16_S16x64_S16384x64_1_0_0_1_n_n 16 rfl rfl d
  have el : dot_S16384x16_S16x64_S16384x64_1_0_0_1_n_n.lhsIdx (ix2 r k)
      ((contrEquiv1 dot_S16384x16_S16x64_S16384x64_1_0_0_1_n_n 16 rfl rfl).symm d) = ix2 r d :=
    funext fun a => Fin.ext (by
      match a with
      | ⟨0, _⟩ => exact dot_S16384x16_S16x64_S16384x64_1_0_0_1_n_n_lhs_0 _ _
      | ⟨1, _⟩ => exact (dot_S16384x16_S16x64_S16384x64_1_0_0_1_n_n_lhs_1 _ _).trans hd)
  have er : dot_S16384x16_S16x64_S16384x64_1_0_0_1_n_n.rhsIdx (ix2 r k)
      ((contrEquiv1 dot_S16384x16_S16x64_S16384x64_1_0_0_1_n_n 16 rfl rfl).symm d) = ix2 d k :=
    funext fun a => Fin.ext (by
      match a with
      | ⟨0, _⟩ => exact (dot_S16384x16_S16x64_S16384x64_1_0_0_1_n_n_rhs_0 _ _).trans hd
      | ⟨1, _⟩ => exact dot_S16384x16_S16x64_S16384x64_1_0_0_1_n_n_rhs_1 _ _)
  rw [el, er]

/-- Second product, left operand: the row coordinate is the output's. -/
theorem dot_S16384x64_S64x32_S16384x32_1_0_0_1_n_n_lhs_0 (i : S16384x32.Idx)
    (q : dot_S16384x64_S64x32_S16384x32_1_0_0_1_n_n.contr.Idx) :
    (dot_S16384x64_S64x32_S16384x32_1_0_0_1_n_n.lhsIdx i q 0).val = (i 0).val := by
  unfold DotDims.lhsIdx
  rw [dif_neg (show ¬(0 : Fin S16384x64.rank) ∈ dot_S16384x64_S64x32_S16384x32_1_0_0_1_n_n.lhsBatch by decide),
    dif_pos (show (0 : Fin S16384x64.rank) ∈ dot_S16384x64_S64x32_S16384x32_1_0_0_1_n_n.lhsNonContracting by decide)]
  rfl
/-- Second product, left operand: the column coordinate is the contraction's. -/
theorem dot_S16384x64_S64x32_S16384x32_1_0_0_1_n_n_lhs_1 (i : S16384x32.Idx)
    (q : dot_S16384x64_S64x32_S16384x32_1_0_0_1_n_n.contr.Idx) :
    (dot_S16384x64_S64x32_S16384x32_1_0_0_1_n_n.lhsIdx i q 1).val = (q ⟨0, by decide⟩).val :=
  dot_S16384x64_S64x32_S16384x32_1_0_0_1_n_n.lhsIdx_val_of_single rfl i q
/-- Second product, right operand: the row coordinate is the contraction's. -/
theorem dot_S16384x64_S64x32_S16384x32_1_0_0_1_n_n_rhs_0 (i : S16384x32.Idx)
    (q : dot_S16384x64_S64x32_S16384x32_1_0_0_1_n_n.contr.Idx) :
    (dot_S16384x64_S64x32_S16384x32_1_0_0_1_n_n.rhsIdx i q 0).val = (q ⟨0, by decide⟩).val :=
  dot_S16384x64_S64x32_S16384x32_1_0_0_1_n_n.rhsIdx_val_of_single rfl i q
/-- Second product, right operand: the column coordinate is the output's. -/
theorem dot_S16384x64_S64x32_S16384x32_1_0_0_1_n_n_rhs_1 (i : S16384x32.Idx)
    (q : dot_S16384x64_S64x32_S16384x32_1_0_0_1_n_n.contr.Idx) :
    (dot_S16384x64_S64x32_S16384x32_1_0_0_1_n_n.rhsIdx i q 1).val = (i 1).val := by
  unfold DotDims.rhsIdx
  rw [dif_neg (show ¬(1 : Fin S64x32.rank) ∈ dot_S16384x64_S64x32_S16384x32_1_0_0_1_n_n.rhsBatch by decide),
    dif_pos (show (1 : Fin S64x32.rank) ∈ dot_S16384x64_S64x32_S16384x32_1_0_0_1_n_n.rhsNonContracting by decide)]
  rfl

/-- The second block product into the zero block, at row `r` and column `q`: the sum over the 64 hidden units. -/
theorem matmul_64_apply {φ₁ φ₂ : FTy} (A : FVec Ideal S16384x64 φ₁) (B : FVec Ideal S64x32 φ₂) (r : Fin 16384) (q : Fin 32) :
    matmul (F := Ideal) dot_S16384x64_S64x32_S16384x32_1_0_0_1_n_n none A B (constant (F := Ideal) S16384x32 .f32 0x00000000#32) (ix2 r q)
      = ∑ k : Fin 64, A (ix2 r k) * B (ix2 k q) := by
  refine (Ideal.matmul_constant_zero_apply dot_S16384x64_S64x32_S16384x32_1_0_0_1_n_n none A B (ix2 r q)).trans ?_
  rw [← Equiv.sum_comp (contrEquiv1 dot_S16384x64_S64x32_S16384x32_1_0_0_1_n_n 64 rfl rfl).symm]
  refine Finset.sum_congr rfl fun k _ => ?_
  have hk := contrEquiv1_symm_val dot_S16384x64_S64x32_S16384x32_1_0_0_1_n_n 64 rfl rfl k
  have el : dot_S16384x64_S64x32_S16384x32_1_0_0_1_n_n.lhsIdx (ix2 r q)
      ((contrEquiv1 dot_S16384x64_S64x32_S16384x32_1_0_0_1_n_n 64 rfl rfl).symm k) = ix2 r k :=
    funext fun a => Fin.ext (by
      match a with
      | ⟨0, _⟩ => exact dot_S16384x64_S64x32_S16384x32_1_0_0_1_n_n_lhs_0 _ _
      | ⟨1, _⟩ => exact (dot_S16384x64_S64x32_S16384x32_1_0_0_1_n_n_lhs_1 _ _).trans hk)
  have er : dot_S16384x64_S64x32_S16384x32_1_0_0_1_n_n.rhsIdx (ix2 r q)
      ((contrEquiv1 dot_S16384x64_S64x32_S16384x32_1_0_0_1_n_n 64 rfl rfl).symm k) = ix2 k q :=
    funext fun a => Fin.ext (by
      match a with
      | ⟨0, _⟩ => exact (dot_S16384x64_S64x32_S16384x32_1_0_0_1_n_n_rhs_0 _ _).trans hk
      | ⟨1, _⟩ => exact dot_S16384x64_S64x32_S16384x32_1_0_0_1_n_n_rhs_1 _ _)
  rw [el, er]

/-- One row of biases broadcast over the rows of a tile, then read at `(r, k)`: the bias at `k`. -/
theorem bias_row_apply {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (r : Fin a) (k : Fin b) :
    broadcastTo ⟨2, ![a, b]⟩ (shapeCast ⟨2, ![1, b]⟩ v h1) h2 (ix2 r k) = v (ix1 k) :=
  (broadcastTo_1b_ab_apply _ h2 r k).trans (shapeCast_a_1a_apply v h1 (0 : Fin 1) k)

/-- The accumulate payload at component `q`: the running contents plus the column sum of the tile's messages. -/
theorem pay2_apply (v3 : Vec Ideal S1x16384x16 .f32) (v6 : Vec Ideal S16x64 .f32) (v9 : Vec Ideal S64 .f32)
    (v15 : Vec Ideal S64x32 .f32) (v19 : Vec Ideal S32 .f32) (v25 : Vec Ideal S1x1x32 .f32) (q : Fin 32) :
    k0_pay2 (F := Ideal) v3 v6 v9 v15 v19 v25 (ix3 (0 : Fin 1) (0 : Fin 1) q)
      = v25 (ix3 (0 : Fin 1) (0 : Fin 1) q) + ∑ r : Fin 16384, message (fun d => v3 (ix3 (0 : Fin 1) r d)) v6 v9 v15 v19 q := by
  unfold k0_pay2
  dsimp only
  refine (shapeCast_ab_1ab_apply _ shapeCasts_S1x32_S1x1x32 (0 : Fin 1) (0 : Fin 1) q).trans ?_
  refine congrArg₂ (· + ·) (shapeCast_1ab_ab_apply v25 shapeCasts_S1x1x32_S1x32 (0 : Fin 1) q) ?_
  refine (shapeCast_a_1a_apply _ shapeCasts_S32_S1x32 (0 : Fin 1) q).trans ?_
  refine (Ideal.multiReduction_add_single _ _ reduces_S16384x32_S32 _ _ (ix1 q)).trans ?_
  show ∑ r : Fin 16384, _ = _
  refine Finset.sum_congr rfl fun r _ => ?_
  have hl : reduces_S16384x32_S32.lift (ix1 q) r = ix2 r q :=
    funext fun a => Fin.ext (by match a with | ⟨0, _⟩ => rfl | ⟨1, _⟩ => rfl)
  refine (congrArg _ hl).trans ?_
  unfold Cert.MessageNet.message
  refine congrArg₂ (· + ·) ?_ (bias_row_apply v19 shapeCasts_S32_S1x32 broadcasts_S1x32_S16384x32 r q)
  refine (matmul_64_apply _ _ r q).trans (Finset.sum_congr rfl fun k _ => ?_)
  refine congrArg (· * v15 (ix2 k q)) ?_
  unfold Cert.MessageNet.hidden
  refine congrArg₂ max ?_ Ideal.ofBits_zero_f32
  refine congrArg₂ (· + ·) ?_ (bias_row_apply v9 shapeCasts_S64_S1x64 broadcasts_S1x64_S16384x64 r k)
  refine (matmul_16_apply _ _ r k).trans (Finset.sum_congr rfl fun d _ => ?_)
  exact congrArg (· * v6 (ix2 d k)) (shapeCast_1ab_ab_apply v3 shapeCasts_S1x16384x16_S16384x16 r d)

/-! ## What each case leaves in the result's staging buffer -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At a point that does not reset, the body leaves the accumulate payload of the point's blocks over the running contents. -/
theorem out_B {F : FTy → Type} [FloatOps F] (c : Dev nD) (i : grid0.Coords)
    (a2 : Memref sig .tc .vmem S1x16384x16 .f32) (h2 : a2.IsWhole) (a3 : Memref sig .tc .vmem S16x64 .f32) (h3 : a3.IsWhole)
    (a4 : Memref sig .tc .vmem S64 .f32) (h4 : a4.IsWhole) (a5 : Memref sig .tc .vmem S64x32 .f32) (h5 : a5.IsWhole)
    (a6 : Memref sig .tc .vmem S32 .f32) (h6 : a6.IsWhole) (a7 : Memref sig .tc .vmem S1x1x32 .f32) (h7 : a7.IsWhole)
    (hc : ¬cond0_0 i) (x0 : Vec F S1x16384x16 .f32) (x1 : Vec F S16x64 .f32) (x2 : Vec F S64 .f32)
    (x3 : Vec F S64x32 .f32) (x4 : Vec F S32 .f32) (xo : Vec F S1x1x32 .f32) :
    out0_B_5 c i a2 h2 a3 h3 a4 h4 a5 h5 a6 h6 a7 h7 hc x0 x1 x2 x3 x4 xo = k0_pay2 x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz3]
  simp only [View.readAt_eq_ld, h2.read_unread, h3.read_unread, h4.read_unread, h5.read_unread, h6.read_unread, h7.read_unread,
    View.ld_unit_zero (S := S1x16384x16) hz3, View.ld_unit_zero (S := S16x64) hz2, View.ld_unit_zero (S := S64) hz1,
    View.ld_unit_zero (S := S64x32) hz2, View.ld_unit_zero (S := S32) hz1, View.ld_unit_zero (S := S1x1x32) hz3]

/-- At a point that resets, the body leaves the accumulate payload of the point's blocks over the zero block. -/
theorem out_A {F : FTy → Type} [FloatOps F] (c : Dev nD) (i : grid0.Coords)
    (a2 : Memref sig .tc .vmem S1x16384x16 .f32) (h2 : a2.IsWhole) (a3 : Memref sig .tc .vmem S16x64 .f32) (h3 : a3.IsWhole)
    (a4 : Memref sig .tc .vmem S64 .f32) (h4 : a4.IsWhole) (a5 : Memref sig .tc .vmem S64x32 .f32) (h5 : a5.IsWhole)
    (a6 : Memref sig .tc .vmem S32 .f32) (h6 : a6.IsWhole) (a7 : Memref sig .tc .vmem S1x1x32 .f32) (h7 : a7.IsWhole)
    (hc : cond0_0 i) (x0 : Vec F S1x16384x16 .f32) (x1 : Vec F S16x64 .f32) (x2 : Vec F S64 .f32)
    (x3 : Vec F S64x32 .f32) (x4 : Vec F S32 .f32) :
    out0_A_5 c i a2 h2 a3 h3 a4 h4 a5 h5 a6 h6 a7 h7 hc x0 x1 x2 x3 x4 = k0_pay2 x0 x1 x2 x3 x4 (k0_pay1 (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, h4.read_unread, h5.read_unread, h6.read_unread,
    View.ld_unit_zero (S := S1x16384x16) hz3, View.ld_unit_zero (S := S16x64) hz2, View.ld_unit_zero (S := S64) hz1,
    View.ld_unit_zero (S := S64x32) hz2, View.ld_unit_zero (S := S32) hz1, View.ld_unit_zero (S := S1x1x32) hz3]

/-! ## The five arrays and the blocks the body reads -/

/-- The node features, the two weight matrices and the two bias rows, as the kernel finds them. -/
abbrev xarr (c : Dev nD) : Vec Ideal S32x65536x16 .f32 := V c main_arg0
abbrev w1arr (c : Dev nD) : Vec Ideal S16x64 .f32 := V c main_arg1
abbrev b1arr (c : Dev nD) : Vec Ideal S64 .f32 := V c main_arg2
abbrev w2arr (c : Dev nD) : Vec Ideal S64x32 .f32 := V c main_arg3
abbrev b2arr (c : Dev nD) : Vec Ideal S32 .f32 := V c main_arg4

/-- The block of each at grid point `t`. -/
abbrev xblk (c : Dev nD) (t : Fin cfg0.N) : Vec Ideal S1x16384x16 .f32 := iblk0 V c 0 t
abbrev w1blk (c : Dev nD) (t : Fin cfg0.N) : Vec Ideal S16x64 .f32 := iblk0 V c 1 t
abbrev b1blk (c : Dev nD) (t : Fin cfg0.N) : Vec Ideal S64 .f32 := iblk0 V c 2 t
abbrev w2blk (c : Dev nD) (t : Fin cfg0.N) : Vec Ideal S64x32 .f32 := iblk0 V c 3 t
abbrev b2blk (c : Dev nD) (t : Fin cfg0.N) : Vec Ideal S32 .f32 := iblk0 V c 4 t

/-- Point `t` is tile `t % 4` of batch `t / 4`: the feature window's block index. -/
theorem index_x : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- The weights and biases are fetched whole: block index zero at every point. -/
theorem index_w1 : ∀ t : Fin cfg0.N, win0_1.index t 0 = 0 ∧ win0_1.index t 1 = 0 :=
  (by decide +kernel : ∀ t : Fin grid0.N, win0_1.index t 0 = 0 ∧ win0_1.index t 1 = 0)
theorem index_b1 : ∀ t : Fin cfg0.N, win0_2.index t 0 = 0 :=
  (by decide +kernel : ∀ t : Fin grid0.N, win0_2.index t 0 = 0)
theorem index_w2 : ∀ t : Fin cfg0.N, win0_3.index t 0 = 0 ∧ win0_3.index t 1 = 0 :=
  (by decide +kernel : ∀ t : Fin grid0.N, win0_3.index t 0 = 0 ∧ win0_3.index t 1 = 0)
theorem index_b2 : ∀ t : Fin cfg0.N, win0_4.index t 0 = 0 :=
  (by decide +kernel : ∀ t : Fin grid0.N, win0_4.index t 0 = 0)
/-- The result window's block at point `t` is row `t / 4` of the result array. -/
theorem index_o : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)

/-- The feature block at point `t`, at row `r` and feature `d`, is node `r` of tile `t % 4` of batch `t / 4`. -/
theorem xblk_apply (c : Dev nD) (t : Fin cfg0.N) (r : Fin 16384) (d : Fin 16) (b : Fin 32) (j : Fin 4)
    (hb : b.val = t.val / 4) (hj : j.val = t.val % 4) :
    xblk V c t (ix3 (0 : Fin 1) r d) = xarr V c (ix3 b (node j r) d) := by
  show ((cfg0.win 0).blk t).view.read (Elt Ideal) (V c (Pipeline.arrRef spec0 0)) (ix3 (0 : Fin 1) r d) = _
  rw [View.read_apply]
  show V c main_arg0 _ = V c main_arg0 _
  congr 1
  funext a
  apply Fin.ext
  obtain ⟨i0, i1, i2⟩ := index_x t
  match a with
  | ⟨0, _⟩ => show win0_0.index t 0 * 1 + 1 * 0 = b.val; rw [i0, hb]; omega
  | ⟨1, _⟩ => show win0_0.index t 1 * 16384 + 1 * r.val = 16384 * j.val + r.val; rw [i1, hj]; omega
  | ⟨2, _⟩ => show win0_0.index t 2 * 16 + 1 * d.val = d.val; rw [i2]; omega

theorem w1blk_eq (c : Dev nD) (t : Fin cfg0.N) : w1blk V c t = w1arr V c := by
  funext x
  show ((cfg0.win 1).blk t).view.read (Elt Ideal) (V c (Pipeline.arrRef spec0 1)) x = _
  rw [View.read_apply]
  show V c main_arg1 _ = V c main_arg1 _
  congr 1
  funext a
  apply Fin.ext
  obtain ⟨i0, i1⟩ := index_w1 t
  match a with
  | ⟨0, _⟩ => show win0_1.index t 0 * 16 + 1 * (x 0).val = (x 0).val; rw [i0]; omega
  | ⟨1, _⟩ => show win0_1.index t 1 * 64 + 1 * (x 1).val = (x 1).val; rw [i1]; omega

theorem b1blk_eq (c : Dev nD) (t : Fin cfg0.N) : b1blk V c t = b1arr V c := by
  funext x
  show ((cfg0.win 2).blk t).view.read (Elt Ideal) (V c (Pipeline.arrRef spec0 2)) x = _
  rw [View.read_apply]
  show V c main_arg2 _ = V c main_arg2 _
  congr 1
  funext a
  apply Fin.ext
  have i0 := index_b1 t
  match a with
  | ⟨0, _⟩ => show win0_2.index t 0 * 64 + 1 * (x 0).val = (x 0).val; rw [i0]; omega

theorem w2blk_eq (c : Dev nD) (t : Fin cfg0.N) : w2blk V c t = w2arr V c := by
  funext x
  show ((cfg0.win 3).blk t).view.read (Elt Ideal) (V c (Pipeline.arrRef spec0 3)) x = _
  rw [View.read_apply]
  show V c main_arg3 _ = V c main_arg3 _
  congr 1
  funext a
  apply Fin.ext
  obtain ⟨i0, i1⟩ := index_w2 t
  match a with
  | ⟨0, _⟩ => show win0_3.index t 0 * 64 + 1 * (x 0).val = (x 0).val; rw [i0]; omega
  | ⟨1, _⟩ => show win0_3.index t 1 * 32 + 1 * (x 1).val = (x 1).val; rw [i1]; omega

theorem b2blk_eq (c : Dev nD) (t : Fin cfg0.N) : b2blk V c t = b2arr V c := by
  funext x
  show ((cfg0.win 4).blk t).view.read (Elt Ideal) (V c (Pipeline.arrRef spec0 4)) x = _
  rw [View.read_apply]
  show V c main_arg4 _ = V c main_arg4 _
  congr 1
  funext a
  apply Fin.ext
  have i0 := index_b2 t
  match a with
  | ⟨0, _⟩ => show win0_4.index t 0 * 32 + 1 * (x 0).val = (x 0).val; rw [i0]; omega

/-! ## The running contents of the result's staging buffer -/

/-- What point `t` adds at component `q`: the column sum of its tile's messages. -/
abbrev addend (c : Dev nD) (t : Fin cfg0.N) (q : Fin 32) : EReal :=
  ∑ r : Fin 16384, message (fun d => xblk V c t (ix3 (0 : Fin 1) r d)) (w1blk V c t) (b1blk V c t) (w2blk V c t) (b2blk V c t) q

/-- It is the tile sum of tile `t % 4` of batch `t / 4`. -/
theorem addend_eq (c : Dev nD) (t : Fin cfg0.N) (b : Fin 32) (j : Fin 4) (hb : b.val = t.val / 4) (hj : j.val = t.val % 4)
    (q : Fin 32) : addend V c t q = tileSum (xarr V c) (w1arr V c) (b1arr V c) (w2arr V c) (b2arr V c) b j q := by
  unfold addend tileSum
  rw [w1blk_eq, b1blk_eq, w2blk_eq, b2blk_eq]
  refine Finset.sum_congr rfl fun r _ => ?_
  exact congrArg (fun row => message row (w1arr V c) (b1arr V c) (w2arr V c) (b2arr V c) q)
    (funext fun d => xblk_apply V c t r d b j hb hj)

/-- The zero block the reset stores reads zero. -/
theorem pay1_apply (q : Fin 32) : k0_pay1 (F := Ideal) (ix3 (0 : Fin 1) (0 : Fin 1) q) = 0 := by
  unfold k0_pay1
  exact (shapeCast_ab_1ab_apply _ shapeCasts_S1x32_S1x1x32 (0 : Fin 1) (0 : Fin 1) q).trans Ideal.ofBits_zero_f32

/-- A resetting point leaves zero plus its addend. -/
theorem outsAt_reset (c : Dev nD) (t : Fin cfg0.N) (h0 : t.val % 4 = 0) (q : Fin 32) :
    outsAt0 V c t.val t.isLt (ix3 (0 : Fin 1) (0 : Fin 1) q) = 0 + addend V c t q := by
  rw [outsAt0_A V c t h0]
  refine (congrFun (out_A (F := Ideal) c (grid0.coords t) (ms0_0 t) (hs0_0 t) (ms0_1 t) (hs0_1 t) (ms0_2 t) (hs0_2 t)
    (ms0_3 t) (hs0_3 t) (ms0_4 t) (hs0_4 t) (ms0_5 t) (hs0_5 t) ((hcond0_0 t).mpr h0)
    (xblk V c t) (w1blk V c t) (b1blk V c t) (w2blk V c t) (b2blk V c t)) (ix3 (0 : Fin 1) (0 : Fin 1) q)).trans ?_
  refine (pay2_apply (xblk V c t) (w1blk V c t) (b1blk V c t) (w2blk V c t) (b2blk V c t) (k0_pay1 (F := Ideal)) q).trans ?_
  exact congrArg (· + addend V c t q) (pay1_apply q)

/-- Any other point adds its addend onto what the point before left. -/
theorem outsAt_step (c : Dev nD) (n : ℕ) (h : n + 1 < cfg0.N) (h0 : ¬(n + 1) % 4 = 0) (q : Fin 32) :
    outsAt0 V c (n + 1) h (ix3 (0 : Fin 1) (0 : Fin 1) q)
      = outsAt0 V c n (Nat.lt_of_succ_lt h) (ix3 (0 : Fin 1) (0 : Fin 1) q) + addend V c ⟨n + 1, h⟩ q := by
  refine (congrFun (outsAt0_B V c ⟨n + 1, h⟩ h0) (ix3 (0 : Fin 1) (0 : Fin 1) q)).trans ?_
  refine (congrFun (out_B (F := Ideal) c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
    (hs0_4 ⟨n + 1, h⟩) (ms0_5 ⟨n + 1, h⟩) (hs0_5 ⟨n + 1, h⟩) (fun hh => h0 ((hcond0_0 ⟨n + 1, h⟩).mp hh))
    (xblk V c ⟨n + 1, h⟩) (w1blk V c ⟨n + 1, h⟩) (b1blk V c ⟨n + 1, h⟩) (w2blk V c ⟨n + 1, h⟩) (b2blk V c ⟨n + 1, h⟩)
    (outsAt0 V c n (Nat.lt_of_succ_lt h))) (ix3 (0 : Fin 1) (0 : Fin 1) q)).trans ?_
  exact pay2_apply (xblk V c ⟨n + 1, h⟩) (w1blk V c ⟨n + 1, h⟩) (b1blk V c ⟨n + 1, h⟩) (w2blk V c ⟨n + 1, h⟩)
    (b2blk V c ⟨n + 1, h⟩) (outsAt0 V c n (Nat.lt_of_succ_lt h)) q

/-- After the fourth point of batch `b` the buffer holds the four tile sums added in tile order onto zero. -/
theorem outsAt_last (c : Dev nD) (b : Fin 32) (q : Fin 32) (h : 4 * b.val + 2 + 1 < cfg0.N) :
    outsAt0 V c (4 * b.val + 2 + 1) h (ix3 (0 : Fin 1) (0 : Fin 1) q)
      = accSum (xarr V c) (w1arr V c) (b1arr V c) (w2arr V c) (b2arr V c) b q := by
  have h2 : 4 * b.val + 1 + 1 < cfg0.N := Nat.lt_of_succ_lt h
  have h1 : 4 * b.val + 1 < cfg0.N := Nat.lt_of_succ_lt h2
  have h0 : 4 * b.val < cfg0.N := Nat.lt_of_succ_lt h1
  have e3 := outsAt_step V c (4 * b.val + 2) h (by omega) q
  have e2 := outsAt_step V c (4 * b.val + 1) h2 (by omega) q
  have e1 := outsAt_step V c (4 * b.val) h1 (by omega) q
  have e0 := outsAt_reset V c ⟨4 * b.val, h0⟩ (by show 4 * b.val % 4 = 0; omega) q
  have a0 := addend_eq V c ⟨4 * b.val, h0⟩ b 0 (by show b.val = 4 * b.val / 4; omega)
    (by show (0 : Fin 4).val = 4 * b.val % 4; omega) q
  have a1 := addend_eq V c ⟨4 * b.val + 1, h1⟩ b 1 (by show b.val = (4 * b.val + 1) / 4; omega)
    (by show (1 : Fin 4).val = (4 * b.val + 1) % 4; omega) q
  have a2 := addend_eq V c ⟨4 * b.val + 1 + 1, h2⟩ b 2 (by show b.val = (4 * b.val + 1 + 1) / 4; omega)
    (by show (2 : Fin 4).val = (4 * b.val + 1 + 1) % 4; omega) q
  have a3 := addend_eq V c ⟨4 * b.val + 2 + 1, h⟩ b 3 (by show b.val = (4 * b.val + 2 + 1) / 4; omega)
    (by show (3 : Fin 4).val = (4 * b.val + 2 + 1) % 4; omega) q
  unfold accSum
  exact e3.trans (congrArg₂ (· + ·) (e2.trans (congrArg₂ (· + ·) (e1.trans (congrArg₂ (· + ·)
    (e0.trans (congrArg (0 + ·) a0)) a1)) a2)) a3)

/-! ## The result array -/

/-- The result array the claim names. -/
abbrev result (c : Dev nD) : Buf (Elt Ideal) ((c : Thread nD τ).loc main_v0) :=
  msgSumArr (xarr V c) (w1arr V c) (b1arr V c) (w2arr V c) (b2arr V c)

/-- Each write-back, at the fourth point of a batch, writes that batch's row of the result. -/
theorem flushed_eq (c : Dev nD) (t : Fin cfg0.N) (hf : (cfg0.win 5).flush t = true) :
    (dat0 (F := Ideal) V c).flushed 5 t = ((cfg0.win 5).blk t).view.read (Elt Ideal) (result V c) := by
  have hN : cfg0.N = 128 := N_0
  have h3 : t.val % 4 = 3 := (flush0_5 t).mp hf
  show (cfg0.win 5).cut (grid0.coords t) ((dat0 (F := Ideal) V c).after 5 t) = _
  rw [after0_5]
  refine funext fun (y : S1x1x32.Idx) => ?_
  rw [View.read_apply]
  obtain ⟨u, v, q, rfl⟩ : ∃ (u v : Fin 1) (q : Fin 32), y = ix3 u v q := ⟨y 0, y 1, y 2, eq_ix3 y⟩
  obtain rfl : u = 0 := Subsingleton.elim _ _
  obtain rfl : v = 0 := Subsingleton.elim _ _
  show outsAt0 V c t.val t.isLt (ix3 (0 : Fin 1) (0 : Fin 1) q)
    = result V c (((cfg0.win 5).blk t).view.emb (ix3 (0 : Fin 1) (0 : Fin 1) q))
  have hb : t.val / 4 < 32 := by have := lt_of_lt_of_eq t.isLt hN; omega
  have hemb : ((cfg0.win 5).blk t).view.emb (ix3 (0 : Fin 1) (0 : Fin 1) q)
      = (ix3 (⟨t.val / 4, hb⟩ : Fin 32) (0 : Fin 1) q : S32x1x32.Idx) := by
    obtain ⟨j0, j1, j2⟩ := index_o t
    funext a
    apply Fin.ext
    match a with
    | ⟨0, _⟩ => show win0_5.index t 0 * 1 + 1 * 0 = t.val / 4; rw [j0]; omega
    | ⟨1, _⟩ => show win0_5.index t 1 * 1 + 1 * 0 = 0; rw [j1]
    | ⟨2, _⟩ => show win0_5.index t 2 * 32 + 1 * q.val = q.val; rw [j2]; omega
  refine Eq.trans ?_ (congrArg (result V c) hemb).symm
  have hlast : 4 * (t.val / 4) + 2 + 1 < cfg0.N :=
    lt_of_lt_of_eq (by have := lt_of_lt_of_eq t.isLt hN; omega : 4 * (t.val / 4) + 2 + 1 < 128) hN.symm
  have same : ∀ (n : ℕ) (hn : n < cfg0.N), n = t.val → outsAt0 V c n hn = outsAt0 V c t.val t.isLt :=
    fun n hn e => by subst e; rfl
  rw [← same (4 * (t.val / 4) + 2 + 1) hlast (by omega)]
  exact outsAt_last V c ⟨t.val / 4, hb⟩ q hlast

/-- After the first kernel's 128 grid points its result array `[32, 1, 32]` holds, per batch, the four tile sums of
    the messages added in tile order onto a zero start. -/
theorem arr_eq (c : Dev nD) :
    (dat0 (F := Ideal) V c).arrAt 5 cfg0.N
      = Cert.MessageNet.msgSumArr (V c main_arg0) (V c main_arg1) (V c main_arg2) (V c main_arg3) (V c main_arg4) :=
  (dat0 (F := Ideal) V c).arrAt_eq_of_cover 5 (result V c) (flushed_eq V c) fun i => by
    have hN : cfg0.N = 128 := N_0
    have hi0 : (i 0 : Nat) < 32 := (i 0).isLt
    have hi1 : (i 1 : Nat) < 1 := (i 1).isLt
    have hi2 : (i 2 : Nat) < 32 := (i 2).isLt
    have hlt : 4 * (i 0 : Nat) + 3 < cfg0.N := by rw [hN]; omega
    refine ⟨⟨4 * (i 0 : Nat) + 3, hlt⟩, (flush0_5 _).mpr (by show (4 * (i 0 : Nat) + 3) % 4 = 3; omega), ?_⟩
    show i ∈ ((View.whole main_v0).slice (win0_5.rect ⟨4 * (i 0 : Nat) + 3, hlt⟩)).set
    rw [View.set_slice_whole, Rect.mem_set_unit]
    intro a
    obtain ⟨j0, j1, j2⟩ := index_o ⟨4 * (i 0 : Nat) + 3, hlt⟩
    have j0' : win0_5.index ⟨4 * (i 0 : Nat) + 3, hlt⟩ 0 = (4 * (i 0 : Nat) + 3) / 4 := j0
    match a with
    | ⟨0, _⟩ =>
      show win0_5.index ⟨4 * (i 0 : Nat) + 3, hlt⟩ 0 * 1 ≤ (i 0 : Nat)
        ∧ (i 0 : Nat) < win0_5.index ⟨4 * (i 0 : Nat) + 3, hlt⟩ 0 * 1 + 1
      rw [j0']; omega
    | ⟨1, _⟩ =>
      show win0_5.index ⟨4 * (i 0 : Nat) + 3, hlt⟩ 1 * 1 ≤ (i 1 : Nat)
        ∧ (i 1 : Nat) < win0_5.index ⟨4 * (i 0 : Nat) + 3, hlt⟩ 1 * 1 + 1
      rw [j1]; omega
    | ⟨2, _⟩ =>
      show win0_5.index ⟨4 * (i 0 : Nat) + 3, hlt⟩ 2 * 32 ≤ (i 2 : Nat)
        ∧ (i 2 : Nat) < win0_5.index ⟨4 * (i 0 : Nat) + 3, hlt⟩ 2 * 32 + 32
      rw [j2]; omega

end Cert.KernelIdeal.MsgSumValue

end
-- ==== Proof.Stage2Value.lean ====
/-
  What the second kernel leaves in its result array, at the extended reals.
-/
import proofs.«124841_j88862873354402_1_alg».proof.Proof.Gen.KernelIdeal.Frame
import proofs.«124841_j88862873354402_1_alg».proof.Proof.MessageNet
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Stage2Value

open Cert.KernelIdeal Cert.KernelIdeal.Gen

open Idealize.ShloMosaic.ValueIdx

variable (V : (c : Dev nD) → (b : Ref sig .tc) → Buf (Elt Ideal) ((c : Thread nD τ).loc b))

/-! ## The two contractions of the body, read at an index -/

theorem lhs_sumDot_0 (i : S1x64.Idx) (q : dot_S1x32_S32x64_S1x64_1_0_0_1_n_n.contr.Idx) :
    (dot_S1x32_S32x64_S1x64_1_0_0_1_n_n.lhsIdx i q 0).val = (i 0).val := by
  unfold DotDims.lhsIdx
  rw [dif_neg (show ¬(0 : Fin S1x32.rank) ∈ dot_S1x32_S32x64_S1x64_1_0_0_1_n_n.lhsBatch by decide), dif_pos (show (0 : Fin S1x32.rank) ∈ dot_S1x32_S32x64_S1x64_1_0_0_1_n_n.lhsNonContracting by decide)]
  rfl
theorem lhs_sumDot_1 (i : S1x64.Idx) (q : dot_S1x32_S32x64_S1x64_1_0_0_1_n_n.contr.Idx) :
    (dot_S1x32_S32x64_S1x64_1_0_0_1_n_n.lhsIdx i q 1).val = (q ⟨0, by decide⟩).val :=
  dot_S1x32_S32x64_S1x64_1_0_0_1_n_n.lhsIdx_val_of_single rfl i q
theorem rhs_sumDot_0 (i : S1x64.Idx) (q : dot_S1x32_S32x64_S1x64_1_0_0_1_n_n.contr.Idx) :
    (dot_S1x32_S32x64_S1x64_1_0_0_1_n_n.rhsIdx i q 0).val = (q ⟨0, by decide⟩).val :=
  dot_S1x32_S32x64_S1x64_1_0_0_1_n_n.rhsIdx_val_of_single rfl i q
theorem rhs_sumDot_1 (i : S1x64.Idx) (q : dot_S1x32_S32x64_S1x64_1_0_0_1_n_n.contr.Idx) :
    (dot_S1x32_S32x64_S1x64_1_0_0_1_n_n.rhsIdx i q 1).val = (i 1).val := by
  unfold DotDims.rhsIdx
  rw [dif_neg (show ¬(1 : Fin S32x64.rank) ∈ dot_S1x32_S32x64_S1x64_1_0_0_1_n_n.rhsBatch by decide), dif_pos (show (1 : Fin S32x64.rank) ∈ dot_S1x32_S32x64_S1x64_1_0_0_1_n_n.rhsNonContracting by decide)]
  rfl

/-- The summed message row against the first weight piece: entry `(u, k)` of the product is the sum over the 32
    message components. -/
theorem sumDot_apply {φ₁ φ₂ : FTy} (a : FVec Ideal S1x32 φ₁) (b : FVec Ideal S32x64 φ₂) (u : Fin 1) (k : Fin 64) :
    matmul dot_S1x32_S32x64_S1x64_1_0_0_1_n_n none a b (constant (F := Ideal) S1x64 .f32 0x00000000#32) (ix2 u k)
      = ∑ q : Fin 32, a (ix2 u q) * b (ix2 q k) := by
  simp only [matmul]
  rw [Ideal.matmul_constant_zero_apply, ← Equiv.sum_comp (ValueIdx.contrEquiv1 dot_S1x32_S32x64_S1x64_1_0_0_1_n_n 32 rfl rfl).symm]
  refine Finset.sum_congr rfl fun q _ => ?_
  have hq := ValueIdx.contrEquiv1_symm_val dot_S1x32_S32x64_S1x64_1_0_0_1_n_n 32 rfl rfl q
  have el : dot_S1x32_S32x64_S1x64_1_0_0_1_n_n.lhsIdx (ix2 u k) ((ValueIdx.contrEquiv1 dot_S1x32_S32x64_S1x64_1_0_0_1_n_n 32 rfl rfl).symm q) = ix2 u q := funext fun ax => Fin.ext (by
    match ax with
    | ⟨0, _⟩ => exact lhs_sumDot_0 _ _
    | ⟨1, _⟩ => exact (lhs_sumDot_1 _ _).trans hq)
  have er : dot_S1x32_S32x64_S1x64_1_0_0_1_n_n.rhsIdx (ix2 u k) ((ValueIdx.contrEquiv1 dot_S1x32_S32x64_S1x64_1_0_0_1_n_n 32 rfl rfl).symm q) = ix2 q k := funext fun ax => Fin.ext (by
    match ax with
    | ⟨0, _⟩ => exact (rhs_sumDot_0 _ _).trans hq
    | ⟨1, _⟩ => exact rhs_sumDot_1 _ _)
  rw [el, er]

theorem lhs_outDot_0 (i : S16384x3.Idx) (q : dot_S16384x64_S64x3_S16384x3_1_0_0_1_n_n.contr.Idx) :
    (dot_S16384x64_S64x3_S16384x3_1_0_0_1_n_n.lhsIdx i q 0).val = (i 0).val := by
  unfold DotDims.lhsIdx
  rw [dif_neg (show ¬(0 : Fin S16384x64.rank) ∈ dot_S16384x64_S64x3_S16384x3_1_0_0_1_n_n.lhsBatch by decide), dif_pos (show (0 : Fin S16384x64.rank) ∈ dot_S16384x64_S64x3_S16384x3_1_0_0_1_n_n.lhsNonContracting by decide)]
  rfl
theorem lhs_outDot_1 (i : S16384x3.Idx) (q : dot_S16384x64_S64x3_S16384x3_1_0_0_1_n_n.contr.Idx) :
    (dot_S16384x64_S64x3_S16384x3_1_0_0_1_n_n.lhsIdx i q 1).val = (q ⟨0, by decide⟩).val :=
  dot_S16384x64_S64x3_S16384x3_1_0_0_1_n_n.lhsIdx_val_of_single rfl i q
theorem rhs_outDot_0 (i : S16384x3.Idx) (q : dot_S16384x64_S64x3_S16384x3_1_0_0_1_n_n.contr.Idx) :
    (dot_S16384x64_S64x3_S16384x3_1_0_0_1_n_n.rhsIdx i q 0).val = (q ⟨0, by decide⟩).val :=
  dot_S16384x64_S64x3_S16384x3_1_0_0_1_n_n.rhsIdx_val_of_single rfl i q
theorem rhs_outDot_1 (i : S16384x3.Idx) (q : dot_S16384x64_S64x3_S16384x3_1_0_0_1_n_n.contr.Idx) :
    (dot_S16384x64_S64x3_S16384x3_1_0_0_1_n_n.rhsIdx i q 1).val = (i 1).val := by
  unfold DotDims.rhsIdx
  rw [dif_neg (show ¬(1 : Fin S64x3.rank) ∈ dot_S16384x64_S64x3_S16384x3_1_0_0_1_n_n.rhsBatch by decide), dif_pos (show (1 : Fin S64x3.rank) ∈ dot_S16384x64_S64x3_S16384x3_1_0_0_1_n_n.rhsNonContracting by decide)]
  rfl

/-- The hidden layer against the output weights: entry `(r, o)` of the product is the sum over the 64 hidden units. -/
theorem outDot_apply {φ₁ φ₂ : FTy} (a : FVec Ideal S16384x64 φ₁) (b : FVec Ideal S64x3 φ₂) (r : Fin 16384) (o : Fin 3) :
    matmul dot_S16384x64_S64x3_S16384x3_1_0_0_1_n_n none a b (constant (F := Ideal) S16384x3 .f32 0x00000000#32) (ix2 r o)
      = ∑ k : Fin 64, a (ix2 r k) * b (ix2 k o) := by
  simp only [matmul]
  rw [Ideal.matmul_constant_zero_apply, ← Equiv.sum_comp (ValueIdx.contrEquiv1 dot_S16384x64_S64x3_S16384x3_1_0_0_1_n_n 64 rfl rfl).symm]
  refine Finset.sum_congr rfl fun k _ => ?_
  have hk := ValueIdx.contrEquiv1_symm_val dot_S16384x64_S64x3_S16384x3_1_0_0_1_n_n 64 rfl rfl k
  have el : dot_S16384x64_S64x3_S16384x3_1_0_0_1_n_n.lhsIdx (ix2 r o) ((ValueIdx.contrEquiv1 dot_S16384x64_S64x3_S16384x3_1_0_0_1_n_n 64 rfl rfl).symm k) = ix2 r k := funext fun ax => Fin.ext (by
    match ax with
    | ⟨0, _⟩ => exact lhs_outDot_0 _ _
    | ⟨1, _⟩ => exact (lhs_outDot_1 _ _).trans hk)
  have er : dot_S16384x64_S64x3_S16384x3_1_0_0_1_n_n.rhsIdx (ix2 r o) ((ValueIdx.contrEquiv1 dot_S16384x64_S64x3_S16384x3_1_0_0_1_n_n 64 rfl rfl).symm k) = ix2 k o := funext fun ax => Fin.ext (by
    match ax with
    | ⟨0, _⟩ => exact (rhs_outDot_0 _ _).trans hk
    | ⟨1, _⟩ => exact rhs_outDot_1 _ _)
  rw [el, er]

/-! ## A column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at one node and one output component -/

/-- The body's stored value at row `r`, component `o` of its block is the second network's output on the block's
    message-sum row and the row's last feature. -/
theorem payload_apply (v0 : Vec Ideal S1x16384x1 .f32) (v2 : Vec Ideal S1x1x32 .f32) (v5 : Vec Ideal S32x64 .f32)
    (v9 : Vec Ideal S1x64 .f32) (v16 : Vec Ideal S64 .f32) (v23 : Vec Ideal S64x3 .f32) (v26 : Vec Ideal S3 .f32)
    (u : Fin 1) (r : Fin 16384) (o : Fin 3) :
    k1_pay1 (F := Ideal) v0 v2 v5 v9 v16 v23 v26 (ix3 u r o)
      = Cert.MessageNet.out2 (fun q => v2 (ix3 (0 : Fin 1) (0 : Fin 1) q)) (v0 (ix3 (0 : Fin 1) r (0 : Fin 1))) v5 v9 v16 v23 v26 o := by
  unfold k1_pay1 Cert.MessageNet.out2
  refine (shapeCast_ab_1ab_apply _ _ u r o).trans ?_
  refine (addf_apply _ _ _).trans ?_
  refine congrArg₂ (· + ·) ?_ ?_
  · refine (outDot_apply _ _ r o).trans ?_
    refine Finset.sum_congr rfl fun k _ => ?_
    refine congrArg₂ (· * ·) ?_ (truncf_apply (φ := .f32) (ψ := .bf16) _ _ _)
    refine (truncf_apply (φ := .f32) (ψ := .bf16) _ _ _).trans ?_
    refine (maximumf_apply _ _ _).trans ?_
    refine congrArg₂ max ?_ ?_
    · refine (addf_apply _ _ _).trans ?_
      refine congrArg₂ (· + ·) ?_ ?_
      · refine (addf_apply _ _ _).trans ?_
        refine congrArg₂ (· + ·) ?_ ?_
        · refine (broadcastTo_1b_ab_apply _ _ r k).trans ?_
          refine (sumDot_apply _ _ 0 k).trans ?_
          refine Finset.sum_congr rfl fun q _ => ?_
          refine congrArg₂ (· * ·) ?_ ?_
          · exact (truncf_apply (φ := .f32) (ψ := .bf16) _ _ _).trans (shapeCast_1ab_ab_apply _ _ 0 q)
          · refine (truncf_apply (φ := .f32) (ψ := .bf16) _ _ _).trans ?_
            rw [shapeCast_self]
        · refine (mulf_apply _ _ _).trans ?_
          refine congrArg₂ (· * ·) ?_ ?_
          · exact (broadcastTo_a1_ab_apply _ _ r k).trans (shapeCast_1ab_ab_apply _ _ r 0)
          · refine (broadcastTo_1b_ab_apply _ _ r k).trans ?_
            rw [shapeCast_self]
      · exact (broadcastTo_1b_ab_apply _ _ r k).trans (shapeCast_a_1a_apply _ _ 0 k)
    · exact (broadcast_apply _ _).trans Ideal.ofBits_zero_f32
  · exact (broadcastTo_1b_ab_apply _ _ r o).trans (shapeCast_a_1a_apply _ _ 0 o)

/-! ## The windows' blocks as parts of the arrays -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: point `t` is batch `t / 4`, tile `t % 4`; the last-feature column and the result
    move with both, the message sums with the batch alone, and the weights are whole. -/
theorem index_facts : ∀ t : Fin cfg1.N,
    (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_7.index t (0 : Fin 3) = t.val / 4 ∧ win1_7.index t (1 : Fin 3) = t.val % 4 ∧ win1_7.index t (2 : Fin 3) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0 :=
  (by decide +kernel : ∀ t : Fin grid1.N, _)

/-- The last-feature block at point `t` is rows `16384 (t % 4) …` of batch `t / 4`. -/
theorem lastFeature_block (c : Dev nD) (t : Fin cfg1.N) (x : S1x16384x1.Idx) (k : S32x65536x1.Idx)
    (hk0 : (k 0).val = t.val / 4) (hk1 : (k 1).val = 16384 * (t.val % 4) + (x 1).val) (hk2 : (k 2).val = 0) :
    (iblk1 V c 0 t : Vec Ideal S1x16384x1 .f32) x = (V c main_v1 : S32x65536x1.Idx → EReal) k := by
  obtain ⟨⟨e0, e1, e2⟩, -⟩ := index_facts t
  unfold iblk1
  rw [View.read_apply]
  show V c main_v1 _ = V c main_v1 _
  congr 1
  funext a
  apply Fin.ext
  match a with
  | ⟨0, _⟩ => show win1_0.index t (0 : Fin 3) * 1 + 1 * (x 0).val = (k 0).val; have hx : (x 0).val < 1 := (x 0).isLt; omega
  | ⟨1, _⟩ => show win1_0.index t (1 : Fin 3) * 16384 + 1 * (x 1).val = (k 1).val; omega
  | ⟨2, _⟩ => show win1_0.index t (2 : Fin 3) * 1 + 1 * (x 2).val = (k 2).val; have hx : (x 2).val < 1 := (x 2).isLt; omega

/-- The message-sum block at point `t` is batch `t / 4`'s row. -/
theorem messageSum_block (c : Dev nD) (t : Fin cfg1.N) (x : S1x1x32.Idx) (k : S32x1x32.Idx)
    (hk0 : (k 0).val = t.val / 4) (hk2 : (k 2).val = (x 2).val) :
    (iblk1 V c 1 t : Vec Ideal S1x1x32 .f32) x = (V c main_v0 : S32x1x32.Idx → EReal) k := by
  obtain ⟨-, ⟨e0, e1, e2⟩, -⟩ := index_facts t
  unfold iblk1
  rw [View.read_apply]
  show V c main_v0 _ = V c main_v0 _
  congr 1
  funext a
  apply Fin.ext
  match a with
  | ⟨0, _⟩ => show win1_1.index t (0 : Fin 3) * 1 + 1 * (x 0).val = (k 0).val; have hx : (x 0).val < 1 := (x 0).isLt; omega
  | ⟨1, _⟩ => show win1_1.index t (1 : Fin 3) * 1 + 1 * (x 1).val = (k 1).val; have hx : (x 1).val < 1 := (x 1).isLt; have hk : (k 1).val < 1 := (k 1).isLt; omega
  | ⟨2, _⟩ => show win1_1.index t (2 : Fin 3) * 32 + 1 * (x 2).val = (k 2).val; omega

/-- The five weight windows hold their whole arrays at every point. -/
theorem firstWeights_block (c : Dev nD) (t : Fin cfg1.N) : (iblk1 V c 2 t : Vec Ideal S32x64 .f32) = V c main_v2 := by
  obtain ⟨-, -, -, ⟨e0, e1⟩, -⟩ := index_facts t
  funext x
  unfold iblk1
  rw [View.read_apply]
  show V c main_v2 _ = V c main_v2 _
  congr 1
  funext a
  apply Fin.ext
  match a with
  | ⟨0, _⟩ => show win1_2.index t (0 : Fin 2) * 32 + 1 * (x 0).val = (x 0).val; omega
  | ⟨1, _⟩ => show win1_2.index t (1 : Fin 2) * 64 + 1 * (x 1).val = (x 1).val; omega

theorem lastRow_block (c : Dev nD) (t : Fin cfg1.N) : (iblk1 V c 3 t : Vec Ideal S1x64 .f32) = V c main_v3 := by
  obtain ⟨-, -, -, -, ⟨e0, e1⟩, -⟩ := index_facts t
  funext x
  unfold iblk1
  rw [View.read_apply]
  show V c main_v3 _ = V c main_v3 _
  congr 1
  funext a
  apply Fin.ext
  match a with
  | ⟨0, _⟩ => show win1_3.index t (0 : Fin 2) * 1 + 1 * (x 0).val = (x 0).val; omega
  | ⟨1, _⟩ => show win1_3.index t (1 : Fin 2) * 64 + 1 * (x 1).val = (x 1).val; omega

theorem hiddenBias_block (c : Dev nD) (t : Fin cfg1.N) : (iblk1 V c 4 t : Vec Ideal S64 .f32) = V c main_arg6 := by
  obtain ⟨-, -, -, -, -, e0, -⟩ := index_facts t
  funext x
  unfold iblk1
  rw [View.read_apply]
  show V c main_arg6 _ = V c main_arg6 _
  congr 1
  funext a
  apply Fin.ext
  match a with
  | ⟨0, _⟩ => show win1_4.index t (0 : Fin 1) * 64 + 1 * (x 0).val = (x 0).val; omega

theorem outWeights_block (c : Dev nD) (t : Fin cfg1.N) : (iblk1 V c 5 t : Vec Ideal S64x3 .f32) = V c main_arg7 := by
  obtain ⟨-, -, -, -, -, -, ⟨e0, e1⟩, -⟩ := index_facts t
  funext x
  unfold iblk1
  rw [View.read_apply]
  show V c main_arg7 _ = V c main_arg7 _
  congr 1
  funext a
  apply Fin.ext
  match a with
  | ⟨0, _⟩ => show win1_5.index t (0 : Fin 2) * 64 + 1 * (x 0).val = (x 0).val; omega
  | ⟨1, _⟩ => show win1_5.index t (1 : Fin 2) * 3 + 1 * (x 1).val = (x 1).val; omega

theorem outBias_block (c : Dev nD) (t : Fin cfg1.N) : (iblk1 V c 6 t : Vec Ideal S3 .f32) = V c main_arg8 := by
  obtain ⟨-, -, -, -, -, -, -, e0⟩ := index_facts t
  funext x
  unfold iblk1
  rw [View.read_apply]
  show V c main_arg8 _ = V c main_arg8 _
  congr 1
  funext a
  apply Fin.ext
  match a with
  | ⟨0, _⟩ => show win1_6.index t (0 : Fin 1) * 3 + 1 * (x 0).val = (x 0).val; omega

/-! ## What a point writes back, and the array after the last point -/

/-- The body's stored value at any index of its block. -/
theorem payload_at (v0 : Vec Ideal S1x16384x1 .f32) (v2 : Vec Ideal S1x1x32 .f32) (v5 : Vec Ideal S32x64 .f32)
    (v9 : Vec Ideal S1x64 .f32) (v16 : Vec Ideal S64 .f32) (v23 : Vec Ideal S64x3 .f32) (v26 : Vec Ideal S3 .f32)
    (j : S1x16384x3.Idx) :
    k1_pay1 (F := Ideal) v0 v2 v5 v9 v16 v23 v26 j
      = Cert.MessageNet.out2 (fun q => v2 (ix3 (0 : Fin 1) (0 : Fin 1) q))
          (v0 (ix3 (0 : Fin 1) (⟨(j 1).val, (j 1).isLt⟩ : Fin 16384) (0 : Fin 1))) v5 v9 v16 v23 v26 ⟨(j 2).val, (j 2).isLt⟩ := by
  obtain ⟨u, r, o, rfl⟩ : ∃ (u : Fin 1) (r : Fin 16384) (o : Fin 3), j = ix3 u r o := ⟨j 0, j 1, j 2, eq_ix3 j⟩
  exact payload_apply v0 v2 v5 v9 v16 v23 v26 u r o

/-- The second network's output depends on the summed message, the last feature and the component only through their values. -/
theorem out2_congr {s s' : Fin 32 → EReal} {l l' : EReal} {o o' : Fin 3} (hs : ∀ q, s q = s' q) (hl : l = l') (ho : o = o')
    (wa : Cert.MessageNet.T2 32 64) (wb : Cert.MessageNet.T2 1 64) (ib1 : Cert.MessageNet.T1 64) (iw2 : Cert.MessageNet.T2 64 3)
    (ib2 : Cert.MessageNet.T1 3) :
    Cert.MessageNet.out2 s l wa wb ib1 iw2 ib2 o = Cert.MessageNet.out2 s' l' wa wb ib1 iw2 ib2 o' := by
  obtain rfl : s = s' := funext hs
  subst hl ho
  rfl

/-- What point `t` writes back is block `t` of the whole result array. -/
theorem flushed_eq (c : Dev nD) (t : Fin cfg1.N) :
    (dat1 (F := Ideal) V c).flushed 7 t
      = ((cfg1.win 7).blk t).view.read (Elt Ideal)
          (Cert.MessageNet.stage2Arr (V c main_v1) (V c main_v0) (V c main_v2) (V c main_v3) (V c main_arg6) (V c main_arg7) (V c main_arg8)) := by
  show (cfg1.win 7).cut (grid1.coords t) ((dat1 V c).after 7 t) = _
  rw [after1_7]
  unfold out1_7
  rw [View.canon_unit_zero zeros3]
  simp only [View.ld_unit_zero (S := S1x16384x1) zeros3, View.ld_unit_zero (S := S1x1x32) zeros3, View.ld_unit_zero (S := S32x64) zeros2,
    View.ld_unit_zero (S := S1x64) zeros2, View.ld_unit_zero (S := S64) zeros1, View.ld_unit_zero (S := S64x3) zeros2,
    View.ld_unit_zero (S := S3) zeros1]
  rw [firstWeights_block, lastRow_block, hiddenBias_block, outWeights_block, outBias_block]
  obtain ⟨-, -, ⟨e0, e1, e2⟩, -⟩ := index_facts t
  funext j
  show k1_pay1 (F := Ideal) (iblk1 V c 0 t) (iblk1 V c 1 t) (V c main_v2) (V c main_v3) (V c main_arg6) (V c main_arg7) (V c main_arg8) j
    = Cert.MessageNet.stage2Arr (V c main_v1) (V c main_v0) (V c main_v2) (V c main_v3) (V c main_arg6) (V c main_arg7) (V c main_arg8) (((cfg1.win 7).blk t).view.emb j)
  refine (payload_at _ _ _ _ _ _ _ j).trans ?_
  unfold Cert.MessageNet.stage2Arr
  have hj0 : (j 0).val < 1 := (j 0).isLt
  refine out2_congr (fun q => messageSum_block V c t _ _ ?_ rfl) (lastFeature_block V c t _ _ ?_ ?_ rfl) (Fin.ext ?_) _ _ _ _ _
  · show win1_7.index t (0 : Fin 3) * 1 + 1 * (j 0).val = t.val / 4
    omega
  · show win1_7.index t (0 : Fin 3) * 1 + 1 * (j 0).val = t.val / 4
    omega
  · show win1_7.index t (1 : Fin 3) * 16384 + 1 * (j 1).val = 16384 * (t.val % 4) + (j 1).val
    omega
  · show (j 2).val = win1_7.index t (2 : Fin 3) * 3 + 1 * (j 2).val
    omega

/-- An index of the result array is in point `t`'s block iff each coordinate is in the block's range on its axis. -/
theorem mem_block (t : Fin cfg1.N) (i : S32x65536x3.Idx) :
    i ∈ ((cfg1.win 7).blk t).view.set ↔ ∀ a : Fin 3, win1_7.index t a * S1x16384x3.size a ≤ (i a).val ∧ (i a).val < win1_7.index t a * S1x16384x3.size a + S1x16384x3.size a := by
  show i ∈ ((View.whole main_v4).slice (win1_7.rect t)).set ↔ _
  rw [View.set_slice_whole, Rect.mem_set_unit]
  exact Iff.rfl

/-- Row `n` of batch `b` is written by point `4 b + n / 16384`. -/
theorem covered (i : S32x65536x3.Idx) : ∃ t : Fin cfg1.N, (cfg1.win 7).flush t = true ∧ i ∈ ((cfg1.win 7).blk t).view.set := by
  have hi0 : (i 0).val < 32 := (i 0).isLt
  have hi1 : (i 1).val < 65536 := (i 1).isLt
  have hi2 : (i 2).val < 3 := (i 2).isLt
  obtain ⟨t, ht⟩ : ∃ t : Fin cfg1.N, t.val = 4 * (i 0).val + (i 1).val / 16384 :=
    ⟨⟨4 * (i 0).val + (i 1).val / 16384, Nat.lt_of_lt_of_eq (by omega) N_1.symm⟩, rfl⟩
  refine ⟨t, flush1_7 t, ?_⟩
  rw [mem_block]
  obtain ⟨-, -, ⟨e0, e1, e2⟩, -⟩ := index_facts t
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 16384 ≤ (i 1).val ∧ (i 1).val < win1_7.index t (1 : Fin 3) * 16384 + 16384; omega
  | ⟨2, _⟩ => show win1_7.index t (2 : Fin 3) * 3 ≤ (i 2).val ∧ (i 2).val < win1_7.index t (2 : Fin 3) * 3 + 3; omega

/-- After the second kernel's 128 grid points its result array `[32, 65536, 3]` holds, node by node, the second
    network's output on the batch's message sum and the node's last feature. -/
theorem arr_eq (c : Dev nD) :
    (dat1 (F := Ideal) V c).arrAt 7 cfg1.N
      = Cert.MessageNet.stage2Arr (V c main_v1) (V c main_v0) (V c main_v2) (V c main_v3) (V c main_arg6) (V c main_arg7) (V c main_arg8) :=
  (dat1 (F := Ideal) V c).arrAt_eq_of_cover 7 _ (fun t _ => flushed_eq V c t) covered

end Cert.KernelIdeal.Stage2Value

end
-- ==== Proof.KernelValue.lean ====
/-
  The kernel program's result array as ONE function of the nine arguments, at the extended reals.

  The program is two kernels with three slices between them. The first kernel leaves, per batch, the accumulated
  message sum in an array of its own; the slices cut the last feature column out of the inputs and the first weight
  matrix of the second network into its first 32 rows and its last row; the second kernel reads those four arrays and
  three more arguments. Reading the contents at each boundary back to the launch memory gives the second network's
  output on the accumulated message sum and each node's last feature, which is the reference's function
  (`MessageNet.stage2Arr_eq_refArr`: a slice read at an index is the operand at the shifted index).
-/
import proofs.«124841_j88862873354402_1_alg».proof.Proof.KernelRun
import proofs.«124841_j88862873354402_1_alg».proof.Proof.MsgSumValue
import proofs.«124841_j88862873354402_1_alg».proof.Proof.Stage2Value
import proofs.«124841_j88862873354402_1_alg».proof.Proof.MessageNet
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.MessageNet Idealize.ShloMosaic.StableHlo Idealize.ShloMosaic.ValueIdx

variable (m : (ℓ : Loc nD τ sig) → Buf (Elt Ideal) ℓ) (ρ : Dev nD → PrngReg)

/-! ## After the first kernel: its inputs as launched, the other arguments untouched -/

theorem first_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem first_arg5 (c : Dev nD) : W1 m ρ c (Proc.devRef .tc main_arg5) = m ((c : Thread nD τ).loc main_arg5) :=
  (W1_of_ne m ρ c main_arg5 (by decide)).trans rfl
theorem first_arg6 (c : Dev nD) : W1 m ρ c (Proc.devRef .tc main_arg6) = m ((c : Thread nD τ).loc main_arg6) :=
  (W1_of_ne m ρ c main_arg6 (by decide)).trans rfl
theorem first_arg7 (c : Dev nD) : W1 m ρ c (Proc.devRef .tc main_arg7) = m ((c : Thread nD τ).loc main_arg7) :=
  (W1_of_ne m ρ c main_arg7 (by decide)).trans rfl
theorem first_arg8 (c : Dev nD) : W1 m ρ c (Proc.devRef .tc main_arg8) = m ((c : Thread nD τ).loc main_arg8) :=
  (W1_of_ne m ρ c main_arg8 (by decide)).trans rfl

/-- The first kernel's result array holds the accumulated message sums of the launch arguments. -/
theorem first_result (c : Dev nD) :
    W1 m ρ c (Proc.devRef .tc main_v0)
      = msgSumArr (m ((c : Thread nD τ).loc main_arg0)) (m ((c : Thread nD τ).loc main_arg1)) (m ((c : Thread nD τ).loc main_arg2)) (m ((c : Thread nD τ).loc main_arg3)) (m ((c : Thread nD τ).loc main_arg4)) :=
  ((W1_arr m ρ c 5).trans (Cert.KernelIdeal.MsgSumValue.arr_eq (V0 m ρ) c)).trans rfl

/-! ## After the three slices: what the second kernel is handed -/

theorem second_lastcol (c : Dev nD) :
    W2 m ρ c (Proc.devRef .tc main_v1)
      = extractStridedSlice S32x65536x1 ![0, 0, 15] (m ((c : Thread nD τ).loc main_arg0)) slices_S32x65536x16_S32x65536x1_0_0_15 := by
  show StableHlo.after hostOps1 (W1 m ρ c) (Proc.devRef .tc main_v1) = _
  after_results
  rw [first_arg0]

theorem second_rows (c : Dev nD) :
    W2 m ρ c (Proc.devRef .tc main_v2)
      = extractStridedSlice S32x64 ![0, 0] (m ((c : Thread nD τ).loc main_arg5)) slices_S33x64_S32x64_0_0 := by
  show StableHlo.after hostOps1 (W1 m ρ c) (Proc.devRef .tc main_v2) = _
  after_results
  rw [first_arg5]

theorem second_lastrow (c : Dev nD) :
    W2 m ρ c (Proc.devRef .tc main_v3)
      = extractStridedSlice S1x64 ![32, 0] (m ((c : Thread nD τ).loc main_arg5)) slices_S33x64_S1x64_32_0 := by
  show StableHlo.after hostOps1 (W1 m ρ c) (Proc.devRef .tc main_v3) = _
  after_results
  rw [first_arg5]

theorem second_msgsum (c : Dev nD) :
    W2 m ρ c (Proc.devRef .tc main_v0)
      = msgSumArr (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W1 m ρ c) (Proc.devRef .tc main_v0) = _
  after_results
  exact first_result m ρ c

theorem second_arg6 (c : Dev nD) : W2 m ρ c (Proc.devRef .tc main_arg6) = m ((c : Thread nD τ).loc main_arg6) := by
  show StableHlo.after hostOps1 (W1 m ρ c) (Proc.devRef .tc main_arg6) = _
  after_results
  exact first_arg6 m ρ c
theorem second_arg7 (c : Dev nD) : W2 m ρ c (Proc.devRef .tc main_arg7) = m ((c : Thread nD τ).loc main_arg7) := by
  show StableHlo.after hostOps1 (W1 m ρ c) (Proc.devRef .tc main_arg7) = _
  after_results
  exact first_arg7 m ρ c
theorem second_arg8 (c : Dev nD) : W2 m ρ c (Proc.devRef .tc main_arg8) = m ((c : Thread nD τ).loc main_arg8) := by
  show StableHlo.after hostOps1 (W1 m ρ c) (Proc.devRef .tc main_arg8) = _
  after_results
  exact first_arg8 m ρ c

/-! ## The slices read at an index -/

theorem lastcol_apply (x : T3 32 65536 16) (b : Fin 32) (n : Fin 65536) :
    extractStridedSlice S32x65536x1 ![0, 0, 15] x slices_S32x65536x16_S32x65536x1_0_0_15 (ix3 b n 0) = x (ix3 b n 15) :=
  extractStridedSlice_apply ![0, 0, 15] x slices_S32x65536x16_S32x65536x1_0_0_15 (ix3 b n 0) (ix3 b n 15) (fun a => match a with
    | ⟨0, _⟩ => by show b.val = 0 + b.val; omega
    | ⟨1, _⟩ => by show n.val = 0 + n.val; omega
    | ⟨2, _⟩ => by show 15 = 15 + 0; omega)

theorem rows_apply (w : T2 33 64) (q : Fin 32) (k : Fin 64) :
    extractStridedSlice S32x64 ![0, 0] w slices_S33x64_S32x64_0_0 (ix2 q k) = w (ix2 q.castSucc k) :=
  extractStridedSlice_apply ![0, 0] w slices_S33x64_S32x64_0_0 (ix2 q k) (ix2 q.castSucc k) (fun a => match a with
    | ⟨0, _⟩ => by show q.val = 0 + q.val; omega
    | ⟨1, _⟩ => by show k.val = 0 + k.val; omega)

theorem lastrow_apply (w : T2 33 64) (k : Fin 64) :
    extractStridedSlice S1x64 ![32, 0] w slices_S33x64_S1x64_32_0 (ix2 0 k) = w (ix2 (Fin.last 32) k) :=
  extractStridedSlice_apply ![32, 0] w slices_S33x64_S1x64_32_0 (ix2 0 k) (ix2 (Fin.last 32) k) (fun a => match a with
    | ⟨0, _⟩ => by show 32 = 32 + 0; omega
    | ⟨1, _⟩ => by show k.val = 0 + k.val; omega)

/-! ## The result -/

/-- After the second kernel the result array holds the reference's function of the nine launch arguments. -/
theorem last_result (c : Dev nD) :
    W3 m ρ c (Proc.devRef .tc main_v4)
      = refArr (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  refine ((W3_arr m ρ c 7).trans (Cert.KernelIdeal.Stage2Value.arr_eq (V2 m ρ) c)).trans ?_
  show stage2Arr (W2 m ρ c (Proc.devRef .tc main_v1)) (W2 m ρ c (Proc.devRef .tc main_v0)) (W2 m ρ c (Proc.devRef .tc main_v2))
    (W2 m ρ c (Proc.devRef .tc main_v3)) (W2 m ρ c (Proc.devRef .tc main_arg6)) (W2 m ρ c (Proc.devRef .tc main_arg7))
    (W2 m ρ c (Proc.devRef .tc main_arg8)) = _
  rw [second_lastcol, second_msgsum, second_rows, second_lastrow, second_arg6, second_arg7, second_arg8]
  exact stage2Arr_eq_refArr _ _ _ _ _ _ _ _ _ _ _ _ (lastcol_apply _) (rows_apply _) (lastrow_apply _)

/-- Every weakly fair execution of the kernel program terminates, nothing faulting, with the result array at the
    reference's function of the arguments and the arguments as launched. -/
theorem run : θ_run defs (onTc (τ := τ) (main (F := Ideal))) ⟨m, fun _ => 0, ρ⟩ (fun r => ∀ c : Dev nD,
      r.2.mem ((c.tc : Thread nD τ).loc main_v4)
        = refArr (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (last_result m ρ c), (h c).2⟩)
    (Cert.KernelIdeal.NamedRun.run_named (F := Ideal) m ρ)

end Cert.KernelIdeal.KernelValue

end
-- ==== Proof.RefValue.lean ====
/-
  What the reference computes, at the extended reals, index by index.
-/
import proofs.«124841_j88862873354402_1_alg».proof.Proof.RefImports
import proofs.«124841_j88862873354402_1_alg».proof.Proof.MessageNet
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.MessageNet

open Idealize.ShloMosaic.ValueIdx

/-! ## The message network on one node

Each stage reads its operands at an index computed from the result's index. At a result index written by its
coordinates these are again indices written by coordinates. -/

/-- First contraction, left operand: node `(b, n)`, feature `d`. -/
theorem firstContr_left (b : Fin 32) (n : Fin 65536) (k : Fin 64) (d : Fin 16) :
    Read.lidx_main_v0 (ix3 b n k) d = ix3 b n d :=
  funext fun a => Fin.ext (by match a with | ⟨0, _⟩ => rfl | ⟨1, _⟩ => rfl | ⟨2, _⟩ => rfl)

/-- First contraction, right operand: row `d`, column `k` of the first weight matrix. -/
theorem firstContr_right (b : Fin 32) (n : Fin 65536) (k : Fin 64) (d : Fin 16) :
    Read.ridx_main_v0 (ix3 b n k) d = ix2 d k :=
  funext fun a => Fin.ext (by match a with | ⟨0, _⟩ => rfl | ⟨1, _⟩ => rfl)

/-- The first bias, spread over batches and nodes, is read at the hidden unit. -/
theorem firstBias_idx (b : Fin 32) (n : Fin 65536) (k : Fin 64) :
    Read.idx_main_v1 (Read.idx_main_v2 (ix3 b n k)) = ix1 k :=
  funext fun a => Fin.ext (by match a with | ⟨0, _⟩ => rfl)

/-- Hidden unit `k` of node `(b, n)`: the rectified affine image of the node's feature row. -/
theorem hidden_stage (x0 : T3 32 65536 16) (x1 : T2 16 64) (x2 : T1 64) (b : Fin 32) (n : Fin 65536) (k : Fin 64) :
    Read.val_main_v4 (F := Ideal) x0 x1 x2 (ix3 b n k) = MessageNet.hidden (fun d => x0 (ix3 b n d)) x1 x2 k := by
  rw [Read.val_main_v4_apply, Read.val_main_v3_apply, Read.val_main_v0_apply, Read.val_main_v2_apply,
    Read.val_main_v1_apply, Read.val_main_call0_v0_apply, Read.val_main_call0_cst_apply, firstBias_idx]
  unfold MessageNet.hidden
  rw [Ideal.maximumf_def, Ideal.addf_def, Ideal.ofBits_def, Ideal.ofBits_zero_f32]
  refine congrArg (fun t => max (t + x2 (ix1 k)) 0) (Finset.sum_congr rfl fun d _ => ?_)
  rw [firstContr_left, firstContr_right]

/-- Second contraction, left operand: hidden unit `k` of node `(b, n)`. -/
theorem secondContr_left (b : Fin 32) (n : Fin 65536) (q : Fin 32) (k : Fin 64) :
    Read.lidx_main_v5 (ix3 b n q) k = ix3 b n k :=
  funext fun a => Fin.ext (by match a with | ⟨0, _⟩ => rfl | ⟨1, _⟩ => rfl | ⟨2, _⟩ => rfl)

/-- Second contraction, right operand: row `k`, column `q` of the second weight matrix. -/
theorem secondContr_right (b : Fin 32) (n : Fin 65536) (q : Fin 32) (k : Fin 64) :
    Read.ridx_main_v5 (ix3 b n q) k = ix2 k q :=
  funext fun a => Fin.ext (by match a with | ⟨0, _⟩ => rfl | ⟨1, _⟩ => rfl)

/-- The second bias, spread over batches and nodes, is read at the message component. -/
theorem secondBias_idx (b : Fin 32) (n : Fin 65536) (q : Fin 32) :
    Read.idx_main_v6 (Read.idx_main_v7 (ix3 b n q)) = ix1 q :=
  funext fun a => Fin.ext (by match a with | ⟨0, _⟩ => rfl)

/-- Message component `q` of node `(b, n)`. -/
theorem message_stage (x0 : T3 32 65536 16) (x1 : T2 16 64) (x2 : T1 64) (x3 : T2 64 32) (x4 : T1 32)
    (b : Fin 32) (n : Fin 65536) (q : Fin 32) :
    Read.val_main_v8 (F := Ideal) x0 x1 x2 x3 x4 (ix3 b n q)
      = MessageNet.message (fun d => x0 (ix3 b n d)) x1 x2 x3 x4 q := by
  rw [Read.val_main_v8_apply, Read.val_main_v5_apply, Read.val_main_v7_apply, Read.val_main_v6_apply,
    secondBias_idx]
  unfold MessageNet.message
  rw [Ideal.addf_def]
  refine congrArg (fun t => t + x4 (ix1 q)) (Finset.sum_congr rfl fun k _ => ?_)
  rw [secondContr_left, secondContr_right, hidden_stage]

/-! ## The sum of the messages over the nodes of a batch -/

/-- The sum over the nodes reads message component `q` of node `(b, n)`. -/
theorem nodeSum_idx (b q : Fin 32) (n : Fin 65536) : Read.idx_main_v9 (ix2 b q) n = ix3 b n q :=
  funext fun a => Fin.ext (by match a with | ⟨0, _⟩ => rfl | ⟨1, _⟩ => rfl | ⟨2, _⟩ => rfl)

/-- Component `q` of batch `b`'s total message: all 65536 messages added onto a zero start. -/
theorem totSum_stage (x0 : T3 32 65536 16) (x1 : T2 16 64) (x2 : T1 64) (x3 : T2 64 32) (x4 : T1 32)
    (b q : Fin 32) :
    Read.val_main_v9 (F := Ideal) x0 x1 x2 x3 x4 (ix2 b q) = MessageNet.totSum x0 x1 x2 x3 x4 b q := by
  rw [Read.val_main_v9_apply, Read.val_main_cst_apply]
  unfold MessageNet.totSum
  rw [Ideal.ofBits_def, Ideal.ofBits_zero_f32]
  refine congrArg (fun t => 0 + t) (Finset.sum_congr rfl fun n _ => ?_)
  rw [nodeSum_idx, message_stage]

/-! ## The 33 features of a node: the total message, then the node's last feature -/

/-- The total message, spread over the nodes, is read at batch `b` and component `q`. -/
theorem spread_idx (b : Fin 32) (n : Fin 65536) (q : Fin 32) :
    Read.idx_main_v10 (Read.idx_main_v11 (ix3 b n q)) = ix2 b q :=
  funext fun a => Fin.ext (by match a with | ⟨0, _⟩ => rfl | ⟨1, _⟩ => rfl)

/-- The one-column slice of the features is their column 15. -/
theorem lastColumn_idx (b : Fin 32) (n : Fin 65536) : Read.idx_main_v12 (ix3 b n (0 : Fin 1)) = ix3 b n (15 : Fin 16) :=
  funext fun a => Fin.ext (by match a with | ⟨0, _⟩ => rfl | ⟨1, _⟩ => rfl | ⟨2, _⟩ => rfl)

/-- Feature `f` of node `(b, n)` in the joined array: below 32 a component of the batch's total message, at 32
    the node's last input feature. -/
theorem feature_stage (x0 : T3 32 65536 16) (x1 : T2 16 64) (x2 : T1 64) (x3 : T2 64 32) (x4 : T1 32)
    (b : Fin 32) (n : Fin 65536) (f : Fin 33) :
    Read.val_main_v13 (F := Ideal) x0 x1 x2 x3 x4 (ix3 b n f)
      = feature (fun q => MessageNet.totSum x0 x1 x2 x3 x4 b q) (x0 (ix3 b n 15)) f := by
  unfold Read.val_main_v13 feature
  by_cases h : f.val < 32
  · rw [dif_pos h]
    refine (concatenate_pair_apply_left (t := S32x65536x33) (s₁ := S32x65536x32) (s₂ := S32x65536x1) (2 : Fin 3) _ _ _
      (ix3 b n f) rfl (ix3 b n (⟨f.val, h⟩ : Fin 32))
      (fun a => by match a with | ⟨0, _⟩ => rfl | ⟨1, _⟩ => rfl | ⟨2, _⟩ => rfl)).trans ?_
    rw [Read.val_main_v11_apply, Read.val_main_v10_apply, spread_idx, totSum_stage]
  · rw [dif_neg h]
    have hf : f.val = 32 := by have := f.isLt; omega
    refine (concatenate_pair_apply_right (t := S32x65536x33) (s₁ := S32x65536x32) (s₂ := S32x65536x1) (2 : Fin 3) _ _ _
      (ix3 b n f) rfl rfl (ix3 b n (0 : Fin 1))
      (fun a ha => by
        match a with
        | ⟨0, _⟩ => rfl
        | ⟨1, _⟩ => rfl
        | ⟨2, _⟩ => exact absurd rfl ha)
      (by show 0 + 32 = f.val; omega)).trans ?_
    rw [Read.val_main_v12_apply, lastColumn_idx]

/-! ## The second network on one node -/

/-- Third contraction, left operand: feature `f` of node `(b, n)`. -/
theorem thirdContr_left (b : Fin 32) (n : Fin 65536) (k : Fin 64) (f : Fin 33) :
    Read.lidx_main_v14 (ix3 b n k) f = ix3 b n f :=
  funext fun a => Fin.ext (by match a with | ⟨0, _⟩ => rfl | ⟨1, _⟩ => rfl | ⟨2, _⟩ => rfl)

/-- Third contraction, right operand: row `f`, column `k` of the second network's first weight matrix. -/
theorem thirdContr_right (b : Fin 32) (n : Fin 65536) (k : Fin 64) (f : Fin 33) :
    Read.ridx_main_v14 (ix3 b n k) f = ix2 f k :=
  funext fun a => Fin.ext (by match a with | ⟨0, _⟩ => rfl | ⟨1, _⟩ => rfl)

/-- The third bias, spread over batches and nodes, is read at the hidden unit. -/
theorem thirdBias_idx (b : Fin 32) (n : Fin 65536) (k : Fin 64) :
    Read.idx_main_v15 (Read.idx_main_v16 (ix3 b n k)) = ix1 k :=
  funext fun a => Fin.ext (by match a with | ⟨0, _⟩ => rfl)

/-- Hidden unit `k` of the second network at node `(b, n)`. -/
theorem hidden2_stage (x0 : T3 32 65536 16) (x1 : T2 16 64) (x2 : T1 64) (x3 : T2 64 32) (x4 : T1 32)
    (x5 : T2 33 64) (x6 : T1 64) (b : Fin 32) (n : Fin 65536) (k : Fin 64) :
    Read.val_main_v18 (F := Ideal) x0 x1 x2 x3 x4 x5 x6 (ix3 b n k)
      = max ((∑ f : Fin 33, feature (fun q => MessageNet.totSum x0 x1 x2 x3 x4 b q) (x0 (ix3 b n 15)) f
          * x5 (ix2 f k)) + x6 (ix1 k)) 0 := by
  rw [Read.val_main_v18_apply, Read.val_main_v17_apply, Read.val_main_v14_apply, Read.val_main_v16_apply,
    Read.val_main_v15_apply, Read.val_main_call1_v0_apply, Read.val_main_call1_cst_apply, thirdBias_idx]
  rw [Ideal.maximumf_def, Ideal.addf_def, Ideal.ofBits_def, Ideal.ofBits_zero_f32]
  refine congrArg (fun t => max (t + x6 (ix1 k)) 0) (Finset.sum_congr rfl fun f _ => ?_)
  rw [thirdContr_left, thirdContr_right, feature_stage]

/-- Fourth contraction, left operand: hidden unit `k` of the second network at node `(b, n)`. -/
theorem fourthContr_left (b : Fin 32) (n : Fin 65536) (o : Fin 3) (k : Fin 64) :
    Read.lidx_main_v19 (ix3 b n o) k = ix3 b n k :=
  funext fun a => Fin.ext (by match a with | ⟨0, _⟩ => rfl | ⟨1, _⟩ => rfl | ⟨2, _⟩ => rfl)

/-- Fourth contraction, right operand: row `k`, column `o` of the output weight matrix. -/
theorem fourthContr_right (b : Fin 32) (n : Fin 65536) (o : Fin 3) (k : Fin 64) :
    Read.ridx_main_v19 (ix3 b n o) k = ix2 k o :=
  funext fun a => Fin.ext (by match a with | ⟨0, _⟩ => rfl | ⟨1, _⟩ => rfl)

/-- The output bias, spread over batches and nodes, is read at the output component. -/
theorem fourthBias_idx (b : Fin 32) (n : Fin 65536) (o : Fin 3) :
    Read.idx_main_v20 (Read.idx_main_v21 (ix3 b n o)) = ix1 o :=
  funext fun a => Fin.ext (by match a with | ⟨0, _⟩ => rfl)

/-- Output component `o` of node `(b, n)`. -/
theorem out_stage (x0 : T3 32 65536 16) (x1 : T2 16 64) (x2 : T1 64) (x3 : T2 64 32) (x4 : T1 32)
    (x5 : T2 33 64) (x6 : T1 64) (x7 : T2 64 3) (x8 : T1 3) (b : Fin 32) (n : Fin 65536) (o : Fin 3) :
    Read.val_main_v22 (F := Ideal) x0 x1 x2 x3 x4 x5 x6 x7 x8 (ix3 b n o)
      = outRef (fun q => MessageNet.totSum x0 x1 x2 x3 x4 b q) (x0 (ix3 b n 15)) x5 x6 x7 x8 o := by
  rw [Read.val_main_v22_apply, Read.val_main_v19_apply, Read.val_main_v21_apply, Read.val_main_v20_apply,
    fourthBias_idx]
  unfold outRef
  rw [Ideal.addf_def]
  refine congrArg (fun t => t + x8 (ix1 o)) (Finset.sum_congr rfl fun k _ => ?_)
  rw [fourthContr_left, fourthContr_right, hidden2_stage]

/-- The reference's last stage, as a function of the nine arguments, is the second network's output on the total
    message sum of the batch and the node's last feature. -/
theorem val_eq (x0 : T3 32 65536 16) (x1 : T2 16 64) (x2 : T1 64) (x3 : T2 64 32) (x4 : T1 32) (x5 : T2 33 64)
    (x6 : T1 64) (x7 : T2 64 3) (x8 : T1 3) :
    Cert.ReferenceIdeal.Read.val_main_v22 (F := Ideal) x0 x1 x2 x3 x4 x5 x6 x7 x8
      = refArr x0 x1 x2 x3 x4 x5 x6 x7 x8 := by
  funext i
  obtain ⟨b, n, o, rfl⟩ : ∃ b n o, i = ix3 b n o := ⟨i 0, i 1, i 2, eq_ix3 i⟩
  exact out_stage x0 x1 x2 x3 x4 x5 x6 x7 x8 b n o

end Cert.ReferenceIdeal.RefValue

end
-- ==== Proof.lean ====
/-
  The certificate of a two-kernel message-passing layer against its plain reference, over the extended reals.

  Per node, a two-layer network turns the 16 input features into a 32-component message; the messages of all 65536
  nodes of a batch are summed; a second two-layer network reads that sum together with the node's last input feature
  and gives 3 outputs. The kernel program sums the messages tile by tile (four tiles of 16384 nodes per batch, added
  in tile order onto a zero start) in a first kernel, and in a second kernel contracts the summed message against
  the first 32 rows of the second network's weights and adds the last feature times row 32. The reference sums all
  the nodes in one sweep and contracts the 33 concatenated features at once. Both are the same function of the
  arguments because addition of extended reals is commutative and associative (Proof/MessageNet.lean): the inputs'
  finiteness is never used. Format changes to sixteen bits are the identity at the extended reals, and the
  idealized kernel program is the kernel program's own text read at the extended reals, so `preserves` is `True`.

  The three frames are the generated ones (the reference's is its generated run with the result dropped). For the
  value claim the kernel program's run is read through its two kernels and the slices between them
  (Proof/KernelRun.lean, Proof/MsgSumValue.lean, Proof/Stage2Value.lean, Proof/KernelValue.lean) and the
  reference's run through its stages (Proof/RefValue.lean); both end at `MessageNet.refArr` of the arguments.
-/
import proofs.«124841_j88862873354402_1_alg».proof.Defs
import proofs.«124841_j88862873354402_1_alg».proof.Proof.Gen.Kernel
import proofs.«124841_j88862873354402_1_alg».proof.Proof.Gen.Kernel.Skeleton
import proofs.«124841_j88862873354402_1_alg».proof.Proof.Gen.Kernel.Launch
import proofs.«124841_j88862873354402_1_alg».proof.Proof.Gen.Kernel.Points
import proofs.«124841_j88862873354402_1_alg».proof.Proof.Gen.Kernel.Frame
import proofs.«124841_j88862873354402_1_alg».proof.Proof.Gen.KernelIdeal
import proofs.«124841_j88862873354402_1_alg».proof.Proof.Gen.KernelIdeal.Skeleton
import proofs.«124841_j88862873354402_1_alg».proof.Proof.Gen.KernelIdeal.Launch
import proofs.«124841_j88862873354402_1_alg».proof.Proof.Gen.KernelIdeal.Points
import proofs.«124841_j88862873354402_1_alg».proof.Proof.Gen.KernelIdeal.Frame
import proofs.«124841_j88862873354402_1_alg».proof.Proof.Gen.ReferenceIdeal
import proofs.«124841_j88862873354402_1_alg».proof.Proof.Gen.Pre_finite_inputs
import proofs.«124841_j88862873354402_1_alg».proof.Proof.RefImports
import proofs.«124841_j88862873354402_1_alg».proof.Proof.MessageNet
import proofs.«124841_j88862873354402_1_alg».proof.Proof.KernelValue
import proofs.«124841_j88862873354402_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run, with what it says of the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the nine arguments both programs end with the result array at the same function of
    the arguments: the kernel program by its two kernels' values and the slices between them, the reference by its
    stages. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.MessageNet.refArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq (F := Ideal) _ _ _ _ _ _ _ _ _).trans
    ((Cert.ReferenceIdeal.RefValue.val_eq _ _ _ _ _ _ _ _ _).trans ?_)
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
